-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x10 : Shape := ⟨2, ![524288, 10]⟩
abbrev S128x10 : Shape := ⟨2, ![128, 10]⟩
abbrev S128 : Shape := ⟨1, ![128]⟩
abbrev S32x128 : Shape := ⟨2, ![32, 128]⟩
abbrev S32 : Shape := ⟨1, ![32]⟩
abbrev S2x32 : Shape := ⟨2, ![2, 32]⟩
abbrev S2 : Shape := ⟨1, ![2]⟩
abbrev S1x32 : Shape := ⟨2, ![1, 32]⟩
abbrev S1 : Shape := ⟨1, ![1]⟩
abbrev S_ : Shape := ⟨0, ![]⟩

class Facts : Prop where
  bcast_S_S524288x10 : S_.BroadcastsInDim S524288x10 (![] : Fin 0 → Fin S524288x10.rank)
  reducesTo_S524288x10_S_d0_1 : S524288x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2x32 .f32) (main_arg8 : FVec F S2 .f32) (main_arg9 : FVec F S1x32 .f32) (main_arg10 : FVec F S1 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S32 .f32) (main_arg5 : FVec F S32x128 .f32) (main_arg6 : FVec F S32 .f32) (main_arg7 : FVec F S2x32 .f32) (main_arg8 : FVec F S2 .f32) (main_arg9 : FVec F S1x32 .f32) (main_arg10 : FVec F S1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S524288x10 .f32) (main_arg1 : FVec F S128x10 .f32) (main_arg2 : FVec F S128 .f32) (main_arg3 : FVec F S32x128 .f32) (main_arg4 : FVec F S32 .f32) (main_arg5 : FVec F S32x128 .f32) (main_arg6 : FVec F S32 .f32) (main_arg7 : FVec F S2x32 .f32) (main_arg8 : FVec F S2 .f32) (main_arg9 : FVec F S1x32 .f32) (main_arg10 : FVec F S1 .f32) : IVec S_ 1 :=
  let main_v0 : FVec F S524288x10 .f32 := Host.absf main_arg0
  let main_cst : FVec F S_ .f32 := constant S_ .f32 0x7F800000#32
  let main_v1 : FVec F S524288x10 .f32 := broadcastInDim S524288x10 ![] bcast_S_S524288x10 main_cst
  let main_v2 : IVec S524288x10 1 := cmpf .olt main_v0 main_v1
  let main_c : IVec S_ 1 := constantI S_ 1 1#1
  let main_v3 : IVec S_ 1 := (fun x v => Host.reduce IntOp.andi x v reducesTo_S524288x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_arg9 main_arg10 main_v13 main_v16
-- ==== Kernel.lean ====
abbrev S524288x10 : Shape := ⟨2, ![524288, 10]⟩
abbrev S128x10 : Shape := ⟨2, ![128, 10]⟩
abbrev S128 : Shape := ⟨1, ![128]⟩
abbrev S32x128 : Shape := ⟨2, ![32, 128]⟩
abbrev S32 : Shape := ⟨1, ![32]⟩
abbrev S2x32 : Shape := ⟨2, ![2, 32]⟩
abbrev S2 : Shape := ⟨1, ![2]⟩
abbrev S1x32 : Shape := ⟨2, ![1, 32]⟩
abbrev S1 : Shape := ⟨1, ![1]⟩
abbrev S1x128 : Shape := ⟨2, ![1, 128]⟩
abbrev S1x2 : Shape := ⟨2, ![1, 2]⟩
abbrev S1x1 : Shape := ⟨2, ![1, 1]⟩
abbrev S524288x2 : Shape := ⟨2, ![524288, 2]⟩
abbrev S2048x10 : Shape := ⟨2, ![2048, 10]⟩
abbrev S2048x2 : Shape := ⟨2, ![2048, 2]⟩
abbrev S10x128 : Shape := ⟨2, ![10, 128]⟩
abbrev S2048x128 : Shape := ⟨2, ![2048, 128]⟩
abbrev S128x32 : Shape := ⟨2, ![128, 32]⟩
abbrev S2048x32 : Shape := ⟨2, ![2048, 32]⟩
abbrev S32x2 : Shape := ⟨2, ![32, 2]⟩
abbrev S32x1 : Shape := ⟨2, ![32, 1]⟩
abbrev S2048x1 : Shape := ⟨2, ![2048, 1]⟩

abbrev nBuf : Space → Nat
  | .hbm => 17
  | .vmem => 14
  | .smem => 0
  | _ => 0

abbrev bufTy : (tb : Table) → Fin (tcTables nBuf tb) → BufTy
  | .hbm, ⟨0, _⟩ => ⟨S524288x10, .f32⟩
  | .hbm, ⟨1, _⟩ => ⟨S128x10, .f32⟩
  | .hbm, ⟨2, _⟩ => ⟨S128, .f32⟩
  | .hbm, ⟨3, _⟩ => ⟨S32x128, .f32⟩
  | .hbm, ⟨4, _⟩ => ⟨S32, .f32⟩
  | .hbm, ⟨5, _⟩ => ⟨S32x128, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S1x32, .f32⟩
  | .hbm, ⟨10, _⟩ => ⟨S1, .f32⟩
  | .hbm, ⟨11, _⟩ => ⟨S1x128, .f32⟩
  | .hbm, ⟨12, _⟩ => ⟨S1x32, .f32⟩
  | .hbm, ⟨13, _⟩ => ⟨S1x32, .f32⟩
  | .hbm, ⟨14, _⟩ => ⟨S1x2, .f32⟩
  | .hbm, ⟨15, _⟩ => ⟨S1x1, .f32⟩
  | .hbm, ⟨16, _⟩ => ⟨S524288x2, .f32⟩
  | .local _ .vmem, ⟨0, _⟩ => ⟨S2048x10, .f32⟩
  | .local _ .vmem, ⟨1, _⟩ => ⟨S2048x10, .f32⟩
  | .local _ .vmem, ⟨2, _⟩ => ⟨S128x10, .f32⟩
  | .local _ .vmem, ⟨3, _⟩ => ⟨S1x128, .f32⟩
  | .local _ .vmem, ⟨4, _⟩ => ⟨S32x128, .f32⟩
  | .local _ .vmem, ⟨5, _⟩ => ⟨S1x32, .f32⟩
  | .local _ .vmem, ⟨6, _⟩ => ⟨S32x128, .f32⟩
  | .local _ .vmem, ⟨7, _⟩ => ⟨S1x32, .f32⟩
  | .local _ .vmem, ⟨8, _⟩ => ⟨S2x32, .f32⟩
  | .local _ .vmem, ⟨9, _⟩ => ⟨S1x2, .f32⟩
  | .local _ .vmem, ⟨10, _⟩ => ⟨S1x32, .f32⟩
  | .local _ .vmem, ⟨11, _⟩ => ⟨S1x1, .f32⟩
  | .local _ .vmem, ⟨12, _⟩ => ⟨S2048x2, .f32⟩
  | .local _ .vmem, ⟨13, _⟩ => ⟨S2048x2, .f32⟩
  | _, _ => ⟨S524288x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S1x128 : S128.ShapeCasts S1x128
  shapeCasts_S32_S1x32 : S32.ShapeCasts S1x32
  shapeCasts_S2_S1x2 : S2.ShapeCasts S1x2
  shapeCasts_S1_S1x1 : S1.ShapeCasts S1x1
  inb_S2048x10_S2048x10_0_0 : ∀ a, (![0, 0] : Fin 2 → Nat) a + S2048x10.size a ≤ S2048x10.size a
  h_S2048x10 : 0 < S2048x10.numel
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  transposes_S128x10_p1_0_S10x128 : S128x10.Transposes [1, 0] S10x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S32x128_S32x128_0_0 : ∀ a, (![0, 0] : Fin 2 → Nat) a + S32x128.size a ≤ S32x128.size a
  h_S32x128 : 0 < S32x128.numel
  transposes_S32x128_p1_0_S128x32 : S32x128.Transposes [1, 0] S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2x32_S2x32_0_0 : ∀ a, (![0, 0] : Fin 2 → Nat) a + S2x32.size a ≤ S2x32.size a
  h_S2x32 : 0 < S2x32.numel
  transposes_S2x32_p1_0_S32x2 : S2x32.Transposes [1, 0] S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2048x2 : S1x2.Broadcasts S2048x2
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  slices_S2048x10_o0_6_S2048x1 : S2048x10.Slices ![0, 6] S2048x1
  slices_S2048x10_o0_7_S2048x1 : S2048x10.Slices ![0, 7] S2048x1
  slices_S2048x10_o0_8_S2048x1 : S2048x10.Slices ![0, 8] S2048x1
  slices_S2048x10_o0_9_S2048x1 : S2048x10.Slices ![0, 9] S2048x1
  slices_S2048x2_o0_0_S2048x1 : S2048x2.Slices ![0, 0] S2048x1
  slices_S2048x2_o0_1_S2048x1 : S2048x2.Slices ![0, 1] S2048x1
  inb_S2048x2_S2048x1_0_0 : ∀ a, (![0, 0] : Fin 2 → Nat) a + S2048x1.size a ≤ S2048x2.size a
  h_S2048x1 : 0 < S2048x1.numel
  inb_S2048x2_S2048x1_0_1 : ∀ a, (![0, 1] : Fin 2 → Nat) a + S2048x1.size a ≤ S2048x2.size a
  dot_S2048x10_S10x128_S2048x128_1_0_0_1_n_n_wf : DotDims.WF S2048x10 S10x128 S2048x128 [1] [0] [0] [1] [] []
  dot_S2048x128_S128x32_S2048x32_1_0_0_1_n_n_wf : DotDims.WF S2048x128 S128x32 S2048x32 [1] [0] [0] [1] [] []
  dot_S2048x32_S32x2_S2048x2_1_0_0_1_n_n_wf : DotDims.WF S2048x32 S32x2 S2048x2 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S524288x10.size a
  hwx0_0 : ∀ i : grid0.Coords, EltTy.bits .f32 = 32 ∨ (Rect.block (s := S524288x10) S2048x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x32.size a ≤ S2x32.size a
  hwx0_7 : ∀ i : grid0.Coords, EltTy.bits .f32 = 32 ∨ (Rect.block (s := S2x32) S2x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x2.size a ≤ S524288x2.size a
  hwx0_11 : ∀ i : grid0.Coords, EltTy.bits .f32 = 32 ∨ (Rect.block (s := S524288x2) S2048x2.size (cc0_transform_11 i) (hinb0_11 i)).WholeWords (EltTy.packing .f32)

variable [Facts₀]

def dot_S2048x10_S10x128_S2048x128_1_0_0_1_n_n : DotDims S2048x10 S10x128 S2048x128 where
  lhsContracting := [1]
  rhsContracting := [0]
  lhsNonContracting := [0]
  rhsNonContracting := [1]
  lhsBatch := []
  rhsBatch := []
  wf := dot_S2048x10_S10x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S2048x32_S32x2_S2048x2_1_0_0_1_n_n : DotDims S2048x32 S32x2 S2048x2 where
  lhsContracting := [1]
  rhsContracting := [0]
  lhsNonContracting := [0]
  rhsNonContracting := [1]
  lhsBatch := []
  rhsBatch := []
  wf := dot_S2048x32_S32x2_S2048x2_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_arg0) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S2048x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S524288x10 : Shape := ⟨2, ![524288, 10]⟩
abbrev S128x10 : Shape := ⟨2, ![128, 10]⟩
abbrev S128 : Shape := ⟨1, ![128]⟩
abbrev S32x128 : Shape := ⟨2, ![32, 128]⟩
abbrev S32 : Shape := ⟨1, ![32]⟩
abbrev S2x32 : Shape := ⟨2, ![2, 32]⟩
abbrev S2 : Shape := ⟨1, ![2]⟩
abbrev S1x32 : Shape := ⟨2, ![1, 32]⟩
abbrev S1 : Shape := ⟨1, ![1]⟩
abbrev S10x128 : Shape := ⟨2, ![10, 128]⟩
abbrev S524288x128 : Shape := ⟨2, ![524288, 128]⟩
abbrev S1x128 : Shape := ⟨2, ![1, 128]⟩
abbrev S_ : Shape := ⟨0, ![]⟩
abbrev S128x32 : Shape := ⟨2, ![128, 32]⟩
abbrev S524288x32 : Shape := ⟨2, ![524288, 32]⟩
abbrev S32x2 : Shape := ⟨2, ![32, 2]⟩
abbrev S524288x2 : Shape := ⟨2, ![524288, 2]⟩
abbrev S1x2 : Shape := ⟨2, ![1, 2]⟩
abbrev S32x1 : Shape := ⟨2, ![32, 1]⟩
abbrev S524288x1 : Shape := ⟨2, ![524288, 1]⟩
abbrev S1x1 : Shape := ⟨2, ![1, 1]⟩
abbrev S524288 : Shape := ⟨1, ![524288]⟩

abbrev nBuf : Space → Nat
  | .hbm => 131
  | .vmem => 0
  | .smem => 0
  | _ => 0

abbrev hbmTy0_0 (i : Nat) : BufTy := match i % 128 with
  | 0 => ⟨S524288x10, .f32⟩
  | 1 => ⟨S128x10, .f32⟩
  | 2 => ⟨S128, .f32⟩
  | 3 => ⟨S32x128, .f32⟩
  | 4 => ⟨S32, .f32⟩
  | 5 => ⟨S32x128, .f32⟩
  | 6 => ⟨S32, .f32⟩
  | 7 => ⟨S2x32, .f32⟩
  | 8 => ⟨S2, .f32⟩
  | 9 => ⟨S1x32, .f32⟩
  | 10 => ⟨S1, .f32⟩
  | 11 => ⟨S10x128, .f32⟩
  | 12 => ⟨S524288x128, .f32⟩
  | 13 => ⟨S1x128, .f32⟩
  | 14 => ⟨S524288x128, .f32⟩
  | 15 => ⟨S524288x128, .f32⟩
  | 16 => ⟨S524288x128, .f32⟩
  | 17 => ⟨S524288x128, .f32⟩
  | 18 => ⟨S_, .f32⟩
  | 19 => ⟨S524288x128, .f32⟩
  | 20 => ⟨S524288x128, .f32⟩
  | 21 => ⟨S_, .f32⟩
  | 22 => ⟨S524288x128, .f32⟩
  | 23 => ⟨S524288x128, .f32⟩
  | 24 => ⟨S524288x128, .f32⟩
  | 25 => ⟨S128x32, .f32⟩
  | 26 => ⟨S524288x32, .f32⟩
  | 27 => ⟨S1x32, .f32⟩
  | 28 => ⟨S524288x32, .f32⟩
  | 29 => ⟨S524288x32, .f32⟩
  | 30 => ⟨S524288x32, .f32⟩
  | 31 => ⟨S524288x32, .f32⟩
  | 32 => ⟨S_, .f32⟩
  | 33 => ⟨S524288x32, .f32⟩
  | 34 => ⟨S524288x32, .f32⟩
  | 35 => ⟨S_, .f32⟩
  | 36 => ⟨S524288x32, .f32⟩
  | 37 => ⟨S524288x32, .f32⟩
  | 38 => ⟨S524288x32, .f32⟩
  | 39 => ⟨S128x32, .f32⟩
  | 40 => ⟨S524288x32, .f32⟩
  | 41 => ⟨S1x32, .f32⟩
  | 42 => ⟨S524288x32, .f32⟩
  | 43 => ⟨S524288x32, .f32⟩
  | 44 => ⟨S524288x32, .f32⟩
  | 45 => ⟨S524288x32, .f32⟩
  | 46 => ⟨S_, .f32⟩
  | 47 => ⟨S524288x32, .f32⟩
  | 48 => ⟨S524288x32, .f32⟩
  | 49 => ⟨S_, .f32⟩
  | 50 => ⟨S524288x32, .f32⟩
  | 51 => ⟨S524288x32, .f32⟩
  | 52 => ⟨S524288x32, .f32⟩
  | 53 => ⟨S32x2, .f32⟩
  | 54 => ⟨S524288x2, .f32⟩
  | 55 => ⟨S1x2, .f32⟩
  | 56 => ⟨S524288x2, .f32⟩
  | 57 => ⟨S524288x2, .f32⟩
  | 58 => ⟨S32x1, .f32⟩
  | 59 => ⟨S524288x1, .f32⟩
  | 60 => ⟨S1x1, .f32⟩
  | 61 => ⟨S524288x1, .f32⟩
  | 62 => ⟨S524288x1, .f32⟩
  | 63 => ⟨S524288, .f32⟩
  | 64 => ⟨S524288, .f32⟩
  | 65 => ⟨S524288, .f32⟩
  | 66 => ⟨S_, .f32⟩
  | 67 => ⟨S524288, .f32⟩
  | 68 => ⟨S524288, .f32⟩
  | 69 => ⟨S_, .f32⟩
  | 70 => ⟨S524288, .f32⟩
  | 71 => ⟨S524288, .f32⟩
  | 72 => ⟨S_, .f32⟩
  | 73 => ⟨S524288, .f32⟩
  | 74 => ⟨S524288, .f32⟩
  | 75 => ⟨S524288x1, .f32⟩
  | 76 => ⟨S524288, .f32⟩
  | 77 => ⟨S524288x1, .f32⟩
  | 78 => ⟨S524288, .f32⟩
  | 79 => ⟨S524288x1, .f32⟩
  | 80 => ⟨S524288, .f32⟩
  | 81 => ⟨S524288x1, .f32⟩
  | 82 => ⟨S524288, .f32⟩
  | 83 => ⟨S524288, .f32⟩
  | 84 => ⟨S524288, .f32⟩
  | 85 => ⟨S524288, .f32⟩
  | 86 => ⟨S_, .f32⟩
  | 87 => ⟨S524288, .f32⟩
  | 88 => ⟨S524288, .f32⟩
  | 89 => ⟨S524288, .f32⟩
  | 90 => ⟨S524288, .f32⟩
  | 91 => ⟨S524288, .f32⟩
  | 92 => ⟨S_, .f32⟩
  | 93 => ⟨S524288, .f32⟩
  | 94 => ⟨S524288, .f32⟩
  | 95 => ⟨S_, .f32⟩
  | 96 => ⟨S524288, .f32⟩
  | 97 => ⟨S524288, .f32⟩
  | 98 => ⟨S_, .f32⟩
  | 99 => ⟨S524288, .f32⟩
  | 100 => ⟨S524288, .f32⟩
  | 101 => ⟨S524288x1, .f32⟩
  | 102 => ⟨S524288x1, .f32⟩
  | 103 => ⟨S524288x2, .f32⟩
  | 104 => ⟨S524288, .f32⟩
  | 105 => ⟨S524288, .f32⟩
  | 106 => ⟨S524288x2, .f32⟩
  | 107 => ⟨S_, .f32⟩
  | 108 => ⟨S524288, .f32⟩
  | 109 => ⟨S524288x2, .f32⟩
  | 110 => ⟨S_, .f32⟩
  | 111 => ⟨S524288, .f32⟩
  | 112 => ⟨S524288, .f32⟩
  | 113 => ⟨S_, .f32⟩
  | 114 => ⟨S524288, .f32⟩
  | 115 => ⟨S524288, .i1⟩
  | 116 => ⟨S_, .f32⟩
  | 117 => ⟨S524288, .f32⟩
  | 118 => ⟨S524288, .f32⟩
  | 119 => ⟨S_, .f32⟩
  | 120 => ⟨S524288, .f32⟩
  | 121 => ⟨S524288, .f32⟩
  | 122 => ⟨S524288, .f32⟩
  | 123 => ⟨S_, .f32⟩
  | 124 => ⟨S_, .f32⟩
  | 125 => ⟨S524288, .f32⟩
  | 126 => ⟨S524288, .f32⟩
  | 127 => ⟨S524288x1, .f32⟩
  | _ => ⟨S524288x10, .f32⟩

abbrev hbmTy0_1 (i : Nat) : BufTy := match i % 128 with
  | 0 => ⟨S524288x2, .f32⟩
  | 1 => ⟨S524288x2, .f32⟩
  | 2 => ⟨S524288x2, .f32⟩
  | _ => ⟨S524288x10, .f32⟩

abbrev hbmTy (i : Nat) : BufTy := match i / 128 with
  | 0 => hbmTy0_0 i
  | 1 => hbmTy0_1 i
  | _ => ⟨S524288x10, .f32⟩

abbrev bufTy : (tb : Table) → Fin (tcTables nBuf tb) → BufTy
  | .hbm, ⟨i, _⟩ => hbmTy i
  | _, _ => ⟨S524288x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst : Ref sig .tc := ⟨.hbm, 66, rfl⟩
abbrev main_v31 : Ref sig .tc := ⟨.hbm, 67, rfl⟩
abbrev main_v32 : Ref sig .tc := ⟨.hbm, 68, rfl⟩
abbrev main_cst_0 : Ref sig .tc := ⟨.hbm, 69, rfl⟩
abbrev main_v33 : Ref sig .tc := ⟨.hbm, 70, rfl⟩
abbrev main_v34 : Ref sig .tc := ⟨.hbm, 71, rfl⟩
abbrev main_cst_1 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_2 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_3 : Ref sig .tc := ⟨.hbm, 92, rfl⟩
abbrev main_v53 : Ref sig .tc := ⟨.hbm, 93, rfl⟩
abbrev main_v54 : Ref sig .tc := ⟨.hbm, 94, rfl⟩
abbrev main_cst_4 : Ref sig .tc := ⟨.hbm, 95, rfl⟩
abbrev main_v55 : Ref sig .tc := ⟨.hbm, 96, rfl⟩
abbrev main_v56 : Ref sig .tc := ⟨.hbm, 97, rfl⟩
abbrev main_cst_5 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_v66 : Ref sig .tc := ⟨.hbm, 109, rfl⟩
abbrev main_cst_7 : Ref sig .tc := ⟨.hbm, 110, rfl⟩
abbrev main_v67 : Ref sig .tc := ⟨.hbm, 111, rfl⟩
abbrev main_v68 : Ref sig .tc := ⟨.hbm, 112, rfl⟩
abbrev main_cst_8 : Ref sig .tc := ⟨.hbm, 113, rfl⟩
abbrev main_v69 : Ref sig .tc := ⟨.hbm, 114, rfl⟩
abbrev main_v70 : Ref sig .tc := ⟨.hbm, 115, rfl⟩
abbrev main_call3_cst : Ref sig .tc := ⟨.hbm, 116, rfl⟩
abbrev main_call3_v0 : Ref sig .tc := ⟨.hbm, 117, rfl⟩
abbrev main_v71 : Ref sig .tc := ⟨.hbm, 118, rfl⟩
abbrev main_cst_9 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_10 : Ref sig .tc := ⟨.hbm, 123, rfl⟩
abbrev main_call4_v0 : Ref sig .tc := ⟨.hbm, 124, rfl⟩
abbrev main_call4_v1 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩

abbrev nD : Nat := 1
abbrev τ : Topo := Topo.v7x

variable {F : FTy → Type} [FloatOps F]

class Facts₀ : Prop where
  transposes_S128x10_S10x128_1_0 : S128x10.Transposes [1, 0] S10x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  transposes_S32x128_S128x32_1_0 : S32x128.Transposes [1, 0] S128x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S2x32_S32x2_1_0 : S2x32.Transposes [1, 0] S32x2
  bcast_S2_S1x2_1 : S2.BroadcastsInDim S1x2 (![1] : Fin 1 → Fin S1x2.rank)
  bcast_S1x2_S524288x2_0_1 : S1x2.BroadcastsInDim S524288x2 (![0, 1] : Fin 2 → Fin S524288x2.rank)
  transposes_S1x32_S32x1_1_0 : S1x32.Transposes [1, 0] S32x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S524288 : S_.BroadcastsInDim S524288 (![] : Fin 0 → Fin S524288.rank)
  slices_S524288x10_S524288x1_0_6 : S524288x10.Slices ![0, 6] S524288x1
  slices_S524288x10_S524288x1_0_7 : S524288x10.Slices ![0, 7] S524288x1
  slices_S524288x10_S524288x1_0_8 : S524288x10.Slices ![0, 8] S524288x1
  slices_S524288x10_S524288x1_0_9 : S524288x10.Slices ![0, 9] S524288x1
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S524288x2_S524288_d1 : S524288x2.ReducesTo [1] S524288
  h_S_ : 0 < S_.numel
  bcast_S524288x1_S524288x2_0_1 : S524288x1.BroadcastsInDim S524288x2 (![0, 1] : Fin 2 → Fin S524288x2.rank)
  dot_S524288x10_S10x128_S524288x128_1_0_0_1_n_n_wf : DotDims.WF S524288x10 S10x128 S524288x128 [1] [0] [0] [1] [] []
  dot_S524288x128_S128x32_S524288x32_1_0_0_1_n_n_wf : DotDims.WF S524288x128 S128x32 S524288x32 [1] [0] [0] [1] [] []
  dot_S524288x32_S32x2_S524288x2_1_0_0_1_n_n_wf : DotDims.WF S524288x32 S32x2 S524288x2 [1] [0] [0] [1] [] []
  dot_S524288x32_S32x1_S524288x1_1_0_0_1_n_n_wf : DotDims.WF S524288x32 S32x1 S524288x1 [1] [0] [0] [1] [] []

variable [Facts₀]

def dot_S524288x10_S10x128_S524288x128_1_0_0_1_n_n : DotDims S524288x10 S10x128 S524288x128 where
  lhsContracting := [1]
  rhsContracting := [0]
  lhsNonContracting := [0]
  rhsNonContracting := [1]
  lhsBatch := []
  rhsBatch := []
  wf := dot_S524288x10_S10x128_S524288x128_1_0_0_1_n_n_wf
def dot_S524288x128_S128x32_S524288x32_1_0_0_1_n_n : DotDims S524288x128 S128x32 S524288x32 where
  lhsContracting := [1]
  rhsContracting := [0]
  lhsNonContracting := [0]
  rhsNonContracting := [1]
  lhsBatch := []
  rhsBatch := []
  wf := dot_S524288x128_S128x32_S524288x32_1_0_0_1_n_n_wf
def dot_S524288x32_S32x2_S524288x2_1_0_0_1_n_n : DotDims S524288x32 S32x2 S524288x2 where
  lhsContracting := [1]
  rhsContracting := [0]
  lhsNonContracting := [0]
  rhsNonContracting := [1]
  lhsBatch := []
  rhsBatch := []
  wf := dot_S524288x32_S32x2_S524288x2_1_0_0_1_n_n_wf
def dot_S524288x32_S32x1_S524288x1_1_0_0_1_n_n : DotDims S524288x32 S32x1 S524288x1 where
  lhsContracting := [1]
  rhsContracting := [0]
  lhsNonContracting := [0]
  rhsNonContracting := [1]
  lhsBatch := []
  rhsBatch := []
  wf := dot_S524288x32_S32x1_S524288x1_1_0_0_1_n_n_wf

class Facts : Prop extends Facts₀ where

variable [Facts]
-- ==== Proof.Spec.lean ====
/-
  The function both programs compute, one row of the observation matrix at a time.

  A row `x ∈ ℝ̄¹⁰` goes through a small network: a shared layer `t = silu (W₁ x + b₁) ∈ ℝ̄¹²⁸`, two heads
  `u = silu (W₂₁ t + b₂₁)`, `v = silu (W₂₂ t + b₂₂)` in `ℝ̄³²`, a nominal control `n = W₃₁ u + b₃₁ ∈ ℝ̄²` and a
  gain `α = 4 · σ (W₃₂ v + b₃₂)`, where `silu z = z · σ z` and `σ z = 1 / (1 + e⁻ᶻ)`. The nominal control is then
  projected onto the half-space `g · w ≤ h` with `g = -2 (x₆, x₇)` and
  `h = -2 (x₆ x₈ + x₇ x₉) + α (x₆² + x₇² - r²)`: with `λ = max (g · n - h, 0) / max (g · g, ε)` where `g · g > 0` and
  `λ = 0` elsewhere, the result is `n - λ g`.

  Everything is on the extended reals, every operation the ideal instance's own; the four constants
  (`4`, `-2`, `r²`, `ε`) and zero stay the single-precision words both programs print.
-/
import Idealize.ShloMosaic.PureOps.Ideal
import Idealize.ShloMosaic.Lib.ValueIdx

noncomputable section

namespace Cert.Spec

open Idealize.ShloMosaic Idealize.ShloMosaic.ValueIdx

/-- The extended real a single-precision word denotes. -/
abbrev lit (w : BitVec 32) : EReal := Ideal.ofBits .f32 w

/-- The network's weights and biases, by row and column. -/
structure Params where
  W1 : Fin 128 → Fin 10 → EReal
  b1 : Fin 128 → EReal
  W21 : Fin 32 → Fin 128 → EReal
  b21 : Fin 32 → EReal
  W22 : Fin 32 → Fin 128 → EReal
  b22 : Fin 32 → EReal
  W31 : Fin 2 → Fin 32 → EReal
  b31 : Fin 2 → EReal
  W32 : Fin 1 → Fin 32 → EReal
  b32 : Fin 1 → EReal

/-- `silu z = z · σ z`. -/
def silu (z : EReal) : EReal := z * Ideal.logistic z

/-- One output of an affine layer: `(∑ₖ xₖ · W j k) + b j`. -/
def affine {n o : Nat} (x : Fin n → EReal) (W : Fin o → Fin n → EReal) (b : Fin o → EReal) (j : Fin o) : EReal :=
  (∑ k : Fin n, x k * W j k) + b j

variable (P : Params) (x : Fin 10 → EReal)

/-- The shared layer. -/
def trunk (h : Fin 128) : EReal := silu (affine x P.W1 P.b1 h)

/-- The first head's hidden layer. -/
def head1 (p : Fin 32) : EReal := silu (affine (trunk P x) P.W21 P.b21 p)

/-- The second head's hidden layer. -/
def head2 (p : Fin 32) : EReal := silu (affine (trunk P x) P.W22 P.b22 p)

/-- The nominal control. -/
def unom (j : Fin 2) : EReal := affine (head1 P x) P.W31 P.b31 j

/-- The gain `α = 4 · σ (W₃₂ v + b₃₂)`. -/
def alpha : EReal := lit 0x40800000#32 * Ideal.logistic (affine (head2 P x) P.W32 P.b32 0)

/-- `x₆² + x₇² - r²`. -/
def barrier : EReal := (x 6 * x 6 + x 7 * x 7) - lit 0x3F23D70A#32

/-- The half-space's bound `h = -2 (x₆ x₈ + x₇ x₉) + α · barrier`. -/
def bound : EReal := lit 0xC0000000#32 * (x 6 * x 8 + x 7 * x 9) + alpha P x * barrier x

/-- The half-space's normal `g = -2 (x₆, x₇)`. -/
def gvec (j : Fin 2) : EReal := lit 0xC0000000#32 * x (if j.val = 0 then 6 else 7)

/-- `g · g`. -/
def gg : EReal := gvec x 0 * gvec x 0 + gvec x 1 * gvec x 1

/-- The violation `g · n - h`. -/
def viol : EReal := (gvec x 0 * unom P x 0 + gvec x 1 * unom P x 1) - bound P x

/-- The multiplier: `max (viol, 0) / max (g · g, ε)` where `g · g > 0`, zero elsewhere. -/
def lam : EReal :=
  Scalar.select (Ideal.cmp .ogt (gg x) (lit 0x00000000#32))
    (Ideal.div (max (viol P x) (lit 0x00000000#32)) (max (gg x) (lit 0x2B8CBCCC#32))) (lit 0x00000000#32)

/-- The projected control `n - λ g`. -/
def out (j : Fin 2) : EReal := unom P x j - lam P x * gvec x j

end Cert.Spec

namespace Cert.Spec

open Idealize.ShloMosaic Idealize.ShloMosaic.ValueIdx

/-- The weights as the programs' argument arrays hold them: matrices by (row, column), biases as vectors. -/
def params (W1 : (⟨2, ![128, 10]⟩ : Shape).Idx → EReal) (b1 : (⟨1, ![128]⟩ : Shape).Idx → EReal)
    (W21 : (⟨2, ![32, 128]⟩ : Shape).Idx → EReal) (b21 : (⟨1, ![32]⟩ : Shape).Idx → EReal)
    (W22 : (⟨2, ![32, 128]⟩ : Shape).Idx → EReal) (b22 : (⟨1, ![32]⟩ : Shape).Idx → EReal)
    (W31 : (⟨2, ![2, 32]⟩ : Shape).Idx → EReal) (b31 : (⟨1, ![2]⟩ : Shape).Idx → EReal)
    (W32 : (⟨2, ![1, 32]⟩ : Shape).Idx → EReal) (b32 : (⟨1, ![1]⟩ : Shape).Idx → EReal) : Params where
  W1 := fun h k => W1 (ix2 h k)
  b1 := fun h => b1 (ix1 h)
  W21 := fun p h => W21 (ix2 p h)
  b21 := fun p => b21 (ix1 p)
  W22 := fun p h => W22 (ix2 p h)
  b22 := fun p => b22 (ix1 p)
  W31 := fun j p => W31 (ix2 j p)
  b31 := fun j => b31 (ix1 j)
  W32 := fun j p => W32 (ix2 j p)
  b32 := fun j => b32 (ix1 j)

/-- The same weights where each bias is held as a one-row matrix. -/
def paramsRows (W1 : (⟨2, ![128, 10]⟩ : Shape).Idx → EReal) (b1 : (⟨2, ![1, 128]⟩ : Shape).Idx → EReal)
    (W21 : (⟨2, ![32, 128]⟩ : Shape).Idx → EReal) (b21 : (⟨2, ![1, 32]⟩ : Shape).Idx → EReal)
    (W22 : (⟨2, ![32, 128]⟩ : Shape).Idx → EReal) (b22 : (⟨2, ![1, 32]⟩ : Shape).Idx → EReal)
    (W31 : (⟨2, ![2, 32]⟩ : Shape).Idx → EReal) (b31 : (⟨2, ![1, 2]⟩ : Shape).Idx → EReal)
    (W32 : (⟨2, ![1, 32]⟩ : Shape).Idx → EReal) (b32 : (⟨2, ![1, 1]⟩ : Shape).Idx → EReal) : Params where
  W1 := fun h k => W1 (ix2 h k)
  b1 := fun h => b1 (ix2 0 h)
  W21 := fun p h => W21 (ix2 p h)
  b21 := fun p => b21 (ix2 0 p)
  W22 := fun p h => W22 (ix2 p h)
  b22 := fun p => b22 (ix2 0 p)
  W31 := fun j p => W31 (ix2 j p)
  b31 := fun j => b31 (ix2 0 j)
  W32 := fun j p => W32 (ix2 j p)
  b32 := fun j => b32 (ix2 0 j)

/-- The result array: row `i₀` of the observations through `out`, column `i₁`. -/
def G (obs : (⟨2, ![524288, 10]⟩ : Shape).Idx → EReal) (P : Params) : (⟨2, ![524288, 2]⟩ : Shape).Idx → EReal :=
  fun i => out P (fun k => obs (ix2 (i 0) k)) (i 1)

end Cert.Spec

end
-- ==== Proof.LibCoe.lean ====
/-
  The extended-real operations of the ideal float instance, read on COERCED REALS.

  Every value of the ideal instance is an extended real. Where an argument is (the coercion of) a real number
  and stays away from an operation's corner (a zero divisor, a non-positive argument of the logarithm or of
  the reciprocal square root), the result is again the coercion of a real: the real operation's value. Each
  lemma below is such an equation, its right side a coerced real, so that a value claim over finite inputs can
  be pushed, operation by operation, from the extended reals down to a statement about real numbers.

  The bit patterns that denote the constants are unfolded here, once.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Sqrt
import Mathlib.Analysis.SpecialFunctions.Log.Basic
import Mathlib.Tactic.NormNum

noncomputable section

namespace Cert.LibCoe

open Idealize.ShloMosaic
open Finset BigOperators

/-! ### Field operations -/

/-- The sum of two coerced reals is the coercion of their sum. -/
theorem add_coe (a b : ℝ) : (a : EReal) + (b : EReal) = ((a + b : ℝ) : EReal) :=
  (EReal.coe_add a b).symm

/-- The difference of two coerced reals is the coercion of their difference. -/
theorem sub_coe (a b : ℝ) : (a : EReal) - (b : EReal) = ((a - b : ℝ) : EReal) :=
  (EReal.coe_sub a b).symm

/-- The product of two coerced reals is the coercion of their product. -/
theorem mul_coe (a b : ℝ) : (a : EReal) * (b : EReal) = ((a * b : ℝ) : EReal) :=
  (EReal.coe_mul a b).symm

/-- The negation of a coerced real is the coercion of its negation. -/
theorem neg_coe (a : ℝ) : -(a : EReal) = ((-a : ℝ) : EReal) :=
  (EReal.coe_neg a).symm

/-- Division of a coerced real by a coerced NON-ZERO real is the coercion of the real quotient: off zero the
    ideal division is the product with the inverse, and the inverse of a coerced real is the coerced inverse. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The maximum of two coerced reals is the coercion of their maximum (the coercion is monotone). -/
theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- A finite sum of coerced reals is the coercion of the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-! ### Transcendental operations -/

/-- The reciprocal square root of a coerced POSITIVE real is the coerced `(√r)⁻¹`. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The exponential of a coerced real is the coerced real exponential. -/
theorem exp_coe (r : ℝ) : Ideal.exp (r : EReal) = ((Real.exp r : ℝ) : EReal) := rfl

/-- The logarithm of a coerced POSITIVE real is the coerced real logarithm. -/
theorem log_coe_pos {r : ℝ} (hr : 0 < r) :
    Ideal.log (r : EReal) = ((Real.log r : ℝ) : EReal) := by
  rw [Ideal.log_coe, if_neg (not_le.mpr hr)]

/-! ### Comparison -/

/-- The ordered comparison "greater than" of two coerced reals is the bit of the real comparison. -/
theorem cmp_ogt_coe (a b : ℝ) :
    Ideal.cmp .ogt (a : EReal) (b : EReal) = BitVec.ofBool (decide (b < a)) := by
  simp only [Ideal.cmp, EReal.coe_lt_coe_iff]

/-- A coerced positive real is "greater than" the coerced zero: the comparison's bit is set. -/
theorem cmp_ogt_coe_zero_of_pos {a : ℝ} (ha : 0 < a) :
    Ideal.cmp .ogt (a : EReal) ((0 : ℝ) : EReal) = 1#1 := by
  rw [cmp_ogt_coe, decide_eq_true ha]; rfl

/-- A coerced non-positive real is not "greater than" the coerced zero: the comparison's bit is clear. -/
theorem cmp_ogt_coe_zero_of_nonpos {a : ℝ} (ha : a ≤ 0) :
    Ideal.cmp .ogt (a : EReal) ((0 : ℝ) : EReal) = 0#1 := by
  rw [cmp_ogt_coe, decide_eq_false (not_lt.mpr ha)]; rfl

/-! ### Constants: what the single-precision patterns denote -/

/-- The pattern of `+0.0` denotes the real `0`. -/
theorem ofBits_zero : Ideal.ofBits .f32 0x00000000#32 = ((0 : ℝ) : EReal) := by
  rw [Ideal.ofBits_zero_f32, EReal.coe_zero]

/-- The pattern of `1.0` (exponent field 127, fraction 0) denotes the real `1`. -/
theorem ofBits_one : Ideal.ofBits .f32 0x3F800000#32 = ((1 : ℝ) : EReal) := by
  simp [Ideal.ofBits, Ideal.ieee, -EReal.coe_mul]; norm_num

/-- The pattern of `10000.0` (exponent field 140, fraction `0x1C4000`): `(2²³ + 1851392) · 2⁻¹⁰ = 10000`. -/
theorem ofBits_10000 : Ideal.ofBits .f32 0x461C4000#32 = ((10000 : ℝ) : EReal) := by
  simp [Ideal.ofBits, Ideal.ieee, -EReal.coe_mul]; norm_num

/-- The single-precision number nearest `10⁻⁵`, exactly: exponent field 110, fraction `0x27C5AC`, that is
    `(2²³ + 2606508) · 2⁻⁴⁰ = 10995116 / 2⁴⁰`. -/
def epsR : ℝ := 10995116 / 1099511627776

/-- That number is positive. -/
theorem epsR_pos : 0 < epsR := by unfold epsR; norm_num

/-- The pattern `0x3727C5AC` denotes `epsR`. -/
theorem ofBits_eps : Ideal.ofBits .f32 0x3727C5AC#32 = ((epsR : ℝ) : EReal) := by
  unfold epsR
  simp [Ideal.ofBits, Ideal.ieee, -EReal.coe_mul]; norm_num

/-- The pattern of `-∞` (sign set, exponent field all ones, fraction 0) denotes `⊥`. -/
theorem ofBits_neg_inf : Ideal.ofBits .f32 0xFF800000#32 = (⊥ : EReal) := by
  simp [Ideal.ofBits, Ideal.ieee]

end Cert.LibCoe

end
-- ==== Proof.KernelSpec.lean ====
/-
  One block of rows through the kernel's body, read element by element.

  The body takes a block of 2048 observation rows and the ten weight and bias windows, and leaves a `2048 × 2` block.
  Here that block at row `r`, column `j`, is shown to be `Spec.out` of row `r` under the windows' weights.

  The body's arithmetic is pointwise except for four matrix products (each against a transposed weight matrix, into a
  zero accumulator), the bias rows spread over all rows, and single columns cut out of a block. Each product is read at
  an index as a finite sum over the shared coordinate; a transposed weight at `(k, q)` is the weight at `(q, k)`; a
  spread bias row at `(p, c)` is the bias at `c`; a cut column at `(r, 0)` is the block at `(r, c)`. With these the
  shared layer, the two heads, the nominal control, the half-space's normal and bound, the violation, the multiplier and
  the projected control are matched with the specification's definitions one after the other, the literal constants
  staying the words both sides print. Last, the result block is assembled from two stored columns.
-/
import proofs.«164526_j12807592476726_1_alg».proof.Proof.Gen.KernelIdeal.Frame
import proofs.«164526_j12807592476726_1_alg».proof.Proof.Spec
import proofs.«164526_j12807592476726_1_alg».proof.Proof.LibCoe
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KernelSpec

open Cert.KernelIdeal Cert.KernelIdeal.Gen Idealize.ShloMosaic Idealize.ShloMosaic.ValueIdx

/-! The product of a `2048×10` matrix with a `10×128` one, accumulated into zero, read at row `p` and column `q`:
    the sum over the shared coordinate `k` of the left factor at `(p, k)` times the right factor at `(k, q)`. -/

theorem mmIn_lhs_0 (i : S2048x128.Idx) (q : dot_S2048x10_S10x128_S2048x128_1_0_0_1_n_n.contr.Idx) :
    (dot_S2048x10_S10x128_S2048x128_1_0_0_1_n_n.lhsIdx i q 0).val = (i 0).val := by
  unfold DotDims.lhsIdx
  rw [dif_neg (show ¬(0 : Fin S2048x10.rank) ∈ dot_S2048x10_S10x128_S2048x128_1_0_0_1_n_n.lhsBatch by decide), dif_pos (show (0 : Fin S2048x10.rank) ∈ dot_S2048x10_S10x128_S2048x128_1_0_0_1_n_n.lhsNonContracting by decide)]
  rfl
theorem mmIn_lhs_1 (i : S2048x128.Idx) (q : dot_S2048x10_S10x128_S2048x128_1_0_0_1_n_n.contr.Idx) :
    (dot_S2048x10_S10x128_S2048x128_1_0_0_1_n_n.lhsIdx i q 1).val = (q ⟨0, by decide⟩).val :=
  dot_S2048x10_S10x128_S2048x128_1_0_0_1_n_n.lhsIdx_val_of_single rfl i q
theorem mmIn_rhs_0 (i : S2048x128.Idx) (q : dot_S2048x10_S10x128_S2048x128_1_0_0_1_n_n.contr.Idx) :
    (dot_S2048x10_S10x128_S2048x128_1_0_0_1_n_n.rhsIdx i q 0).val = (q ⟨0, by decide⟩).val :=
  dot_S2048x10_S10x128_S2048x128_1_0_0_1_n_n.rhsIdx_val_of_single rfl i q
theorem mmIn_rhs_1 (i : S2048x128.Idx) (q : dot_S2048x10_S10x128_S2048x128_1_0_0_1_n_n.contr.Idx) :
    (dot_S2048x10_S10x128_S2048x128_1_0_0_1_n_n.rhsIdx i q 1).val = (i 1).val := by
  unfold DotDims.rhsIdx
  rw [dif_neg (show ¬(1 : Fin S10x128.rank) ∈ dot_S2048x10_S10x128_S2048x128_1_0_0_1_n_n.rhsBatch by decide), dif_pos (show (1 : Fin S10x128.rank) ∈ dot_S2048x10_S10x128_S2048x128_1_0_0_1_n_n.rhsNonContracting by decide)]
  rfl

theorem mmIn_apply (l : FVec Ideal S2048x10 .bf16) (r : FVec Ideal S10x128 .bf16) (p : Fin 2048) (q : Fin 128) :
    matmul dot_S2048x10_S10x128_S2048x128_1_0_0_1_n_n none l r (constant S2048x128 .f32 0x00000000#32) (ix2 p q)
      = ∑ k : Fin 10, l (ix2 p k) * r (ix2 k q) := by
  show FloatOps.matmul dot_S2048x10_S10x128_S2048x128_1_0_0_1_n_n none l r (constant S2048x128 .f32 0x00000000#32) (ix2 p q) = _
  rw [Ideal.matmul_constant_zero_apply, ← Equiv.sum_comp (ValueIdx.contrEquiv1 dot_S2048x10_S10x128_S2048x128_1_0_0_1_n_n 10 rfl rfl).symm]
  refine Finset.sum_congr rfl fun k _ => ?_
  have hk := ValueIdx.contrEquiv1_symm_val dot_S2048x10_S10x128_S2048x128_1_0_0_1_n_n 10 rfl rfl k
  have el : dot_S2048x10_S10x128_S2048x128_1_0_0_1_n_n.lhsIdx (ix2 p q) ((ValueIdx.contrEquiv1 dot_S2048x10_S10x128_S2048x128_1_0_0_1_n_n 10 rfl rfl).symm k) = ix2 p k := funext fun a => Fin.ext (by
    match a with
    | ⟨0, _⟩ => exact mmIn_lhs_0 _ _
    | ⟨1, _⟩ => exact (mmIn_lhs_1 _ _).trans hk)
  have er : dot_S2048x10_S10x128_S2048x128_1_0_0_1_n_n.rhsIdx (ix2 p q) ((ValueIdx.contrEquiv1 dot_S2048x10_S10x128_S2048x128_1_0_0_1_n_n 10 rfl rfl).symm k) = ix2 k q := funext fun a => Fin.ext (by
    match a with
    | ⟨0, _⟩ => exact (mmIn_rhs_0 _ _).trans hk
    | ⟨1, _⟩ => exact mmIn_rhs_1 _ _)
  rw [el, er]

/-- The same product when the right factor is the transpose of a `128×10` matrix `w`: the right factor at `(k, q)`
    is `w` at `(q, k)`. -/
theorem mmIn_T_apply (l : FVec Ideal S2048x10 .bf16) (w : FVec Ideal S128x10 .bf16) (p : Fin 2048) (q : Fin 128) :
    matmul dot_S2048x10_S10x128_S2048x128_1_0_0_1_n_n none l (transpose S10x128 [1, 0] w transposes_S128x10_p1_0_S10x128) (constant S2048x128 .f32 0x00000000#32) (ix2 p q)
      = ∑ k : Fin 10, l (ix2 p k) * w (ix2 q k) :=
  (mmIn_apply l _ p q).trans
    (Finset.sum_congr rfl fun k _ => congrArg (l (ix2 p k) * ·) (transpose_ix2_apply w transposes_S128x10_p1_0_S10x128 k q))

/-! The product of a `2048×128` matrix with a `128×32` one, accumulated into zero, read at row `p` and column `q`:
    the sum over the shared coordinate `k` of the left factor at `(p, k)` times the right factor at `(k, q)`. -/

theorem mmMid_lhs_0 (i : S2048x32.Idx) (q : dot_S2048x128_S128x32_S2048x32_1_0_0_1_n_n.contr.Idx) :
    (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem mmMid_lhs_1 (i : S2048x32.Idx) (q : dot_S2048x128_S128x32_S2048x32_1_0_0_1_n_n.contr.Idx) :
    (dot_S2048x128_S128x32_S2048x32_1_0_0_1_n_n.lhsIdx i q 1).val = (q ⟨0, by decide⟩).val :=
  dot_S2048x128_S128x32_S2048x32_1_0_0_1_n_n.lhsIdx_val_of_single rfl i q
theorem mmMid_rhs_0 (i : S2048x32.Idx) (q : dot_S2048x128_S128x32_S2048x32_1_0_0_1_n_n.contr.Idx) :
    (dot_S2048x128_S128x32_S2048x32_1_0_0_1_n_n.rhsIdx i q 0).val = (q ⟨0, by decide⟩).val :=
  dot_S2048x128_S128x32_S2048x32_1_0_0_1_n_n.rhsIdx_val_of_single rfl i q
theorem mmMid_rhs_1 (i : S2048x32.Idx) (q : dot_S2048x128_S128x32_S2048x32_1_0_0_1_n_n.contr.Idx) :
    (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

theorem mmMid_apply (l : FVec Ideal S2048x128 .bf16) (r : FVec Ideal S128x32 .bf16) (p : Fin 2048) (q : Fin 32) :
    matmul dot_S2048x128_S128x32_S2048x32_1_0_0_1_n_n none l r (constant S2048x32 .f32 0x00000000#32) (ix2 p q)
      = ∑ k : Fin 128, l (ix2 p k) * r (ix2 k q) := by
  show FloatOps.matmul dot_S2048x128_S128x32_S2048x32_1_0_0_1_n_n none l r (constant S2048x32 .f32 0x00000000#32) (ix2 p q) = _
  rw [Ideal.matmul_constant_zero_apply, ← Equiv.sum_comp (ValueIdx.contrEquiv1 dot_S2048x128_S128x32_S2048x32_1_0_0_1_n_n 128 rfl rfl).symm]
  refine Finset.sum_congr rfl fun k _ => ?_
  have hk := ValueIdx.contrEquiv1_symm_val dot_S2048x128_S128x32_S2048x32_1_0_0_1_n_n 128 rfl rfl k
  have el : dot_S2048x128_S128x32_S2048x32_1_0_0_1_n_n.lhsIdx (ix2 p q) ((ValueIdx.contrEquiv1 dot_S2048x128_S128x32_S2048x32_1_0_0_1_n_n 128 rfl rfl).symm k) = ix2 p k := funext fun a => Fin.ext (by
    match a with
    | ⟨0, _⟩ => exact mmMid_lhs_0 _ _
    | ⟨1, _⟩ => exact (mmMid_lhs_1 _ _).trans hk)
  have er : dot_S2048x128_S128x32_S2048x32_1_0_0_1_n_n.rhsIdx (ix2 p q) ((ValueIdx.contrEquiv1 dot_S2048x128_S128x32_S2048x32_1_0_0_1_n_n 128 rfl rfl).symm k) = ix2 k q := funext fun a => Fin.ext (by
    match a with
    | ⟨0, _⟩ => exact (mmMid_rhs_0 _ _).trans hk
    | ⟨1, _⟩ => exact mmMid_rhs_1 _ _)
  rw [el, er]

/-- The same product when the right factor is the transpose of a `32×128` matrix `w`: the right factor at `(k, q)`
    is `w` at `(q, k)`. -/
theorem mmMid_T_apply (l : FVec Ideal S2048x128 .bf16) (w : FVec Ideal S32x128 .bf16) (p : Fin 2048) (q : Fin 32) :
    matmul dot_S2048x128_S128x32_S2048x32_1_0_0_1_n_n none l (transpose S128x32 [1, 0] w transposes_S32x128_p1_0_S128x32) (constant S2048x32 .f32 0x00000000#32) (ix2 p q)
      = ∑ k : Fin 128, l (ix2 p k) * w (ix2 q k) :=
  (mmMid_apply l _ p q).trans
    (Finset.sum_congr rfl fun k _ => congrArg (l (ix2 p k) * ·) (transpose_ix2_apply w transposes_S32x128_p1_0_S128x32 k q))

/-! The product of a `2048×32` matrix with a `32×2` one, accumulated into zero, read at row `p` and column `q`:
    the sum over the shared coordinate `k` of the left factor at `(p, k)` times the right factor at `(k, q)`. -/

theorem mmNom_lhs_0 (i : S2048x2.Idx) (q : dot_S2048x32_S32x2_S2048x2_1_0_0_1_n_n.contr.Idx) :
    (dot_S2048x32_S32x2_S2048x2_1_0_0_1_n_n.lhsIdx i q 0).val = (i 0).val := by
  unfold DotDims.lhsIdx
  rw [dif_neg (show ¬(0 : Fin S2048x32.rank) ∈ dot_S2048x32_S32x2_S2048x2_1_0_0_1_n_n.lhsBatch by decide), dif_pos (show (0 : Fin S2048x32.rank) ∈ dot_S2048x32_S32x2_S2048x2_1_0_0_1_n_n.lhsNonContracting by decide)]
  rfl
theorem mmNom_lhs_1 (i : S2048x2.Idx) (q : dot_S2048x32_S32x2_S2048x2_1_0_0_1_n_n.contr.Idx) :
    (dot_S2048x32_S32x2_S2048x2_1_0_0_1_n_n.lhsIdx i q 1).val = (q ⟨0, by decide⟩).val :=
  dot_S2048x32_S32x2_S2048x2_1_0_0_1_n_n.lhsIdx_val_of_single rfl i q
theorem mmNom_rhs_0 (i : S2048x2.Idx) (q : dot_S2048x32_S32x2_S2048x2_1_0_0_1_n_n.contr.Idx) :
    (dot_S2048x32_S32x2_S2048x2_1_0_0_1_n_n.rhsIdx i q 0).val = (q ⟨0, by decide⟩).val :=
  dot_S2048x32_S32x2_S2048x2_1_0_0_1_n_n.rhsIdx_val_of_single rfl i q
theorem mmNom_rhs_1 (i : S2048x2.Idx) (q : dot_S2048x32_S32x2_S2048x2_1_0_0_1_n_n.contr.Idx) :
    (dot_S2048x32_S32x2_S2048x2_1_0_0_1_n_n.rhsIdx i q 1).val = (i 1).val := by
  unfold DotDims.rhsIdx
  rw [dif_neg (show ¬(1 : Fin S32x2.rank) ∈ dot_S2048x32_S32x2_S2048x2_1_0_0_1_n_n.rhsBatch by decide), dif_pos (show (1 : Fin S32x2.rank) ∈ dot_S2048x32_S32x2_S2048x2_1_0_0_1_n_n.rhsNonContracting by decide)]
  rfl

theorem mmNom_apply (l : FVec Ideal S2048x32 .bf16) (r : FVec Ideal S32x2 .bf16) (p : Fin 2048) (q : Fin 2) :
    matmul dot_S2048x32_S32x2_S2048x2_1_0_0_1_n_n none l r (constant S2048x2 .f32 0x00000000#32) (ix2 p q)
      = ∑ k : Fin 32, l (ix2 p k) * r (ix2 k q) := by
  show FloatOps.matmul dot_S2048x32_S32x2_S2048x2_1_0_0_1_n_n none l r (constant S2048x2 .f32 0x00000000#32) (ix2 p q) = _
  rw [Ideal.matmul_constant_zero_apply, ← Equiv.sum_comp (ValueIdx.contrEquiv1 dot_S2048x32_S32x2_S2048x2_1_0_0_1_n_n 32 rfl rfl).symm]
  refine Finset.sum_congr rfl fun k _ => ?_
  have hk := ValueIdx.contrEquiv1_symm_val dot_S2048x32_S32x2_S2048x2_1_0_0_1_n_n 32 rfl rfl k
  have el : dot_S2048x32_S32x2_S2048x2_1_0_0_1_n_n.lhsIdx (ix2 p q) ((ValueIdx.contrEquiv1 dot_S2048x32_S32x2_S2048x2_1_0_0_1_n_n 32 rfl rfl).symm k) = ix2 p k := funext fun a => Fin.ext (by
    match a with
    | ⟨0, _⟩ => exact mmNom_lhs_0 _ _
    | ⟨1, _⟩ => exact (mmNom_lhs_1 _ _).trans hk)
  have er : dot_S2048x32_S32x2_S2048x2_1_0_0_1_n_n.rhsIdx (ix2 p q) ((ValueIdx.contrEquiv1 dot_S2048x32_S32x2_S2048x2_1_0_0_1_n_n 32 rfl rfl).symm k) = ix2 k q := funext fun a => Fin.ext (by
    match a with
    | ⟨0, _⟩ => exact (mmNom_rhs_0 _ _).trans hk
    | ⟨1, _⟩ => exact mmNom_rhs_1 _ _)
  rw [el, er]

/-- The same product when the right factor is the transpose of a `2×32` matrix `w`: the right factor at `(k, q)`
    is `w` at `(q, k)`. -/
theorem mmNom_T_apply (l : FVec Ideal S2048x32 .bf16) (w : FVec Ideal S2x32 .bf16) (p : Fin 2048) (q : Fin 2) :
    matmul dot_S2048x32_S32x2_S2048x2_1_0_0_1_n_n none l (transpose S32x2 [1, 0] w transposes_S2x32_p1_0_S32x2) (constant S2048x2 .f32 0x00000000#32) (ix2 p q)
      = ∑ k : Fin 32, l (ix2 p k) * w (ix2 q k) :=
  (mmNom_apply l _ p q).trans
    (Finset.sum_congr rfl fun k _ => congrArg (l (ix2 p k) * ·) (transpose_ix2_apply w transposes_S2x32_p1_0_S32x2 k q))

/-! The product of a `2048×32` matrix with a `32×1` one, accumulated into zero, read at row `p` and column `q`:
    the sum over the shared coordinate `k` of the left factor at `(p, k)` times the right factor at `(k, q)`. -/

theorem mmGain_lhs_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem mmGain_lhs_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem mmGain_rhs_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem mmGain_rhs_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

theorem mmGain_apply (l : FVec Ideal S2048x32 .bf16) (r : FVec Ideal S32x1 .bf16) (p : Fin 2048) (q : Fin 1) :
    matmul dot_S2048x32_S32x1_S2048x1_1_0_0_1_n_n none l r (constant S2048x1 .f32 0x00000000#32) (ix2 p q)
      = ∑ k : Fin 32, l (ix2 p k) * r (ix2 k q) := by
  show FloatOps.matmul dot_S2048x32_S32x1_S2048x1_1_0_0_1_n_n none l r (constant S2048x1 .f32 0x00000000#32) (ix2 p q) = _
  rw [Ideal.matmul_constant_zero_apply, ← Equiv.sum_comp (ValueIdx.contrEquiv1 dot_S2048x32_S32x1_S2048x1_1_0_0_1_n_n 32 rfl rfl).symm]
  refine Finset.sum_congr rfl fun k _ => ?_
  have hk := ValueIdx.contrEquiv1_symm_val dot_S2048x32_S32x1_S2048x1_1_0_0_1_n_n 32 rfl rfl k
  have el : dot_S2048x32_S32x1_S2048x1_1_0_0_1_n_n.lhsIdx (ix2 p q) ((ValueIdx.contrEquiv1 dot_S2048x32_S32x1_S2048x1_1_0_0_1_n_n 32 rfl rfl).symm k) = ix2 p k := funext fun a => Fin.ext (by
    match a with
    | ⟨0, _⟩ => exact mmGain_lhs_0 _ _
    | ⟨1, _⟩ => exact (mmGain_lhs_1 _ _).trans hk)
  have er : dot_S2048x32_S32x1_S2048x1_1_0_0_1_n_n.rhsIdx (ix2 p q) ((ValueIdx.contrEquiv1 dot_S2048x32_S32x1_S2048x1_1_0_0_1_n_n 32 rfl rfl).symm k) = ix2 k q := funext fun a => Fin.ext (by
    match a with
    | ⟨0, _⟩ => exact (mmGain_rhs_0 _ _).trans hk
    | ⟨1, _⟩ => exact mmGain_rhs_1 _ _)
  rw [el, er]

/-- The same product when the right factor is the transpose of a `1×32` matrix `w`: the right factor at `(k, q)`
    is `w` at `(q, k)`. -/
theorem mmGain_T_apply (l : FVec Ideal S2048x32 .bf16) (w : FVec Ideal S1x32 .bf16) (p : Fin 2048) (q : Fin 1) :
    matmul dot_S2048x32_S32x1_S2048x1_1_0_0_1_n_n none l (transpose S32x1 [1, 0] w transposes_S1x32_p1_0_S32x1) (constant S2048x1 .f32 0x00000000#32) (ix2 p q)
      = ∑ k : Fin 32, l (ix2 p k) * w (ix2 q k) :=
  (mmGain_apply l _ p q).trans
    (Finset.sum_congr rfl fun k _ => congrArg (l (ix2 p k) * ·) (transpose_ix2_apply w transposes_S1x32_p1_0_S32x1 k q))

/-- The logistic function of a vector, read at an index. -/
theorem logistic_apply {s : Shape} {φ : FTy} (v : FVec Ideal s φ) (i : s.Idx) : logistic v i = Ideal.logistic (v i) := rfl

/-- The shared layer at row `r`, unit `h`: the row times the transposed first weight matrix, plus the bias row,
    through `z ↦ z · σ z`. -/
theorem trunk_apply (x0 : Vec Ideal S2048x10 .f32) (x1 : Vec Ideal S128x10 .f32) (x2 : Vec Ideal S1x128 .f32)
    (r : Fin 2048) (h : Fin 128) :
    k0_pay4 (F := Ideal) x0 x1 x2 (ix2 r h)
      = Cert.Spec.silu (Cert.Spec.affine (fun k => x0 (ix2 r k)) (fun h k => x1 (ix2 h k)) (fun h => x2 (ix2 0 h)) h) := by
  unfold k0_pay4
  simp only [truncf_apply, mulf_apply, addf_apply, logistic_apply]
  rw [mmIn_T_apply, shapeCast_self, broadcastTo_1b_ab_apply]
  rfl

/-- One head's hidden layer as it is computed from the shared layer `t`, a `32×128` weight matrix and a bias row:
    `z · σ z` with `z` the product of `t` with the transposed weights plus the bias row. -/
def headVec (t : FVec Ideal S2048x128 .bf16) (W : Vec Ideal S32x128 .f32) (b : Vec Ideal S1x32 .f32) : FVec Ideal S2048x32 .f32 :=
  have z : FVec Ideal S2048x32 .f32 :=
    addf (matmul dot_S2048x128_S128x32_S2048x32_1_0_0_1_n_n none t
        (transpose S128x32 [1, 0] (truncf .bf16 W bitsLt_bf16_f32) transposes_S32x128_p1_0_S128x32)
        (constant S2048x32 .f32 0x00000000#32))
      (broadcastTo S2048x32 (shapeCast S1x32 b shapeCasts_S1x32_S1x32) broadcasts_S1x32_S2048x32)
  mulf z (logistic z)

theorem headVec_apply (t : FVec Ideal S2048x128 .bf16) (W : Vec Ideal S32x128 .f32) (b : Vec Ideal S1x32 .f32)
    (r : Fin 2048) (p : Fin 32) :
    headVec t W b (ix2 r p)
      = Cert.Spec.silu (Cert.Spec.affine (fun h => t (ix2 r h)) (fun p h => W (ix2 p h)) (fun p => b (ix2 0 p)) p) := by
  unfold headVec
  simp only [mulf_apply, addf_apply, logistic_apply]
  rw [mmMid_T_apply, shapeCast_self, broadcastTo_1b_ab_apply]
  rfl

section Block

variable (x0 : Vec Ideal S2048x10 .f32) (x1 : Vec Ideal S128x10 .f32) (x2 : Vec Ideal S1x128 .f32)
  (x3 : Vec Ideal S32x128 .f32) (x4 : Vec Ideal S1x32 .f32) (x5 : Vec Ideal S32x128 .f32) (x6 : Vec Ideal S1x32 .f32)
  (x7 : Vec Ideal S2x32 .f32) (x8 : Vec Ideal S1x2 .f32) (x9 : Vec Ideal S1x32 .f32) (x10 : Vec Ideal S1x1 .f32)
  (r : Fin 2048)

/-- The weights and biases as the block's windows hold them. -/
abbrev Pw : Cert.Spec.Params := Cert.Spec.paramsRows x1 x2 x3 x4 x5 x6 x7 x8 x9 x10

/-- Row `r` of the block of observations. -/
abbrev row : Fin 10 → EReal := fun k => x0 (ix2 r k)

/-- The shared layer is the specification's. -/
theorem trunk_eq (h : Fin 128) :
    k0_pay4 (F := Ideal) x0 x1 x2 (ix2 r h) = Cert.Spec.trunk (Pw x1 x2 x3 x4 x5 x6 x7 x8 x9 x10) (row x0 r) h :=
  trunk_apply x0 x1 x2 r h

/-- The first head's hidden layer is the specification's. -/
theorem head1_eq (p : Fin 32) :
    headVec (k0_pay4 x0 x1 x2) x3 x4 (ix2 r p) = Cert.Spec.head1 (Pw x1 x2 x3 x4 x5 x6 x7 x8 x9 x10) (row x0 r) p := by
  refine (headVec_apply _ _ _ r p).trans ?_
  have ht : (fun h => k0_pay4 (F := Ideal) x0 x1 x2 (ix2 r h)) = Cert.Spec.trunk (Pw x1 x2 x3 x4 x5 x6 x7 x8 x9 x10) (row x0 r) :=
    funext fun h => trunk_eq x0 x1 x2 x3 x4 x5 x6 x7 x8 x9 x10 r h
  rw [ht]
  rfl

/-- The second head's hidden layer is the specification's. -/
theorem head2_eq (p : Fin 32) :
    k0_pay5 (F := Ideal) x0 x1 x2 x5 x6 (ix2 r p) = Cert.Spec.head2 (Pw x1 x2 x3 x4 x5 x6 x7 x8 x9 x10) (row x0 r) p := by
  show headVec (k0_pay4 x0 x1 x2) x5 x6 (ix2 r p) = _
  refine (headVec_apply _ _ _ r p).trans ?_
  have ht : (fun h => k0_pay4 (F := Ideal) x0 x1 x2 (ix2 r h)) = Cert.Spec.trunk (Pw x1 x2 x3 x4 x5 x6 x7 x8 x9 x10) (row x0 r) :=
    funext fun h => trunk_eq x0 x1 x2 x3 x4 x5 x6 x7 x8 x9 x10 r h
  rw [ht]
  rfl

/-- The first head's hidden layer times the transposed third weight matrix. -/
theorem nom_sum (j : Fin 2) :
    k0_pay6 (F := Ideal) x0 x1 x2 x3 x4 x7 (ix2 r j)
      = ∑ p : Fin 32, Cert.Spec.head1 (Pw x1 x2 x3 x4 x5 x6 x7 x8 x9 x10) (row x0 r) p * x7 (ix2 j p) := by
  have e : k0_pay6 (F := Ideal) x0 x1 x2 x3 x4 x7 (ix2 r j)
      = ∑ p : Fin 32, headVec (k0_pay4 x0 x1 x2) x3 x4 (ix2 r p) * x7 (ix2 j p) := by
    unfold k0_pay6
    exact mmNom_T_apply _ _ r j
  rw [e]
  exact Finset.sum_congr rfl fun p _ => congrArg (· * x7 (ix2 j p)) (head1_eq x0 x1 x2 x3 x4 x5 x6 x7 x8 x9 x10 r p)

/-- The nominal control is the specification's. -/
theorem unom_eq (j : Fin 2) :
    k0_pay7 (k0_pay6 (F := Ideal) x0 x1 x2 x3 x4 x7) x8 (ix2 r j)
      = Cert.Spec.unom (Pw x1 x2 x3 x4 x5 x6 x7 x8 x9 x10) (row x0 r) j := by
  unfold k0_pay7
  simp only [addf_apply]
  rw [shapeCast_self, broadcastTo_1b_ab_apply, nom_sum x0 x1 x2 x3 x4 x5 x6 x7 x8 x9 x10 r j]
  rfl

/-! The second half of the body works on single columns of the block, read at row `r`. -/

/-- Column 6 of the observations. -/
theorem col6_eq : k0_pay8 (F := Ideal) x0 (ix2 r (0 : Fin 1)) = row x0 r 6 := by
  unfold k0_pay8
  exact slice2_axis1_apply 6 x0 slices_S2048x10_o0_6_S2048x1 r 0 6 rfl

/-- Column 7 of the observations. -/
theorem col7_eq : k0_pay9 (F := Ideal) x0 (ix2 r (0 : Fin 1)) = row x0 r 7 := by
  unfold k0_pay9
  exact slice2_axis1_apply 7 x0 slices_S2048x10_o0_7_S2048x1 r 0 7 rfl

/-- The half-space's normal, first coordinate. -/
theorem g0_eq : k0_pay10 (F := Ideal) x0 (ix2 r (0 : Fin 1)) = Cert.Spec.gvec (row x0 r) 0 := by
  unfold k0_pay10
  simp only [mulf_apply, broadcast_apply]
  rw [col6_eq]
  rfl

/-- The half-space's normal, second coordinate. -/
theorem g1_eq : k0_pay11 (F := Ideal) x0 (ix2 r (0 : Fin 1)) = Cert.Spec.gvec (row x0 r) 1 := by
  unfold k0_pay11
  simp only [mulf_apply, broadcast_apply]
  rw [col7_eq]
  rfl

/-- The normal's squared length. -/
theorem gg_eq : k0_pay12 (F := Ideal) x0 (ix2 r (0 : Fin 1)) = Cert.Spec.gg (row x0 r) := by
  unfold k0_pay12
  simp only [mulf_apply, addf_apply]
  rw [g0_eq, g1_eq]
  rfl

/-- The nominal control's first coordinate, cut out as a column. -/
theorem unom0_eq : k0_pay13 (k0_pay6 (F := Ideal) x0 x1 x2 x3 x4 x7) x8 (ix2 r (0 : Fin 1))
    = Cert.Spec.unom (Pw x1 x2 x3 x4 x5 x6 x7 x8 x9 x10) (row x0 r) 0 := by
  unfold k0_pay13
  refine (slice2_axis1_apply 0 _ slices_S2048x2_o0_0_S2048x1 r 0 0 rfl).trans ?_
  exact unom_eq x0 x1 x2 x3 x4 x5 x6 x7 x8 x9 x10 r 0

/-- The nominal control's second coordinate, cut out as a column. -/
theorem unom1_eq : k0_pay14 (k0_pay6 (F := Ideal) x0 x1 x2 x3 x4 x7) x8 (ix2 r (0 : Fin 1))
    = Cert.Spec.unom (Pw x1 x2 x3 x4 x5 x6 x7 x8 x9 x10) (row x0 r) 1 := by
  unfold k0_pay14
  refine (slice2_axis1_apply 1 _ slices_S2048x2_o0_1_S2048x1 r 0 1 rfl).trans ?_
  exact unom_eq x0 x1 x2 x3 x4 x5 x6 x7 x8 x9 x10 r 1

/-- Whether the normal's squared length is positive. -/
theorem pos_eq : k0_pay16 (F := Ideal) x0 (ix2 r (0 : Fin 1))
    = Ideal.cmp .ogt (Cert.Spec.gg (row x0 r)) (Cert.Spec.lit 0x00000000#32) := by
  unfold k0_pay16
  simp only [cmpf_apply, broadcast_apply]
  rw [gg_eq]
  rfl

/-- The violation `g · n - h`: the gain is `4 · σ` of the second head's hidden layer times the transposed last weight
    row plus its bias; the bound `h` and the product `g · n` are sums of products of single columns. -/
theorem viol_eq :
    k0_pay15 (F := Ideal) x0 (k0_pay5 x0 x1 x2 x5 x6) (k0_pay6 x0 x1 x2 x3 x4 x7) x8 x9 x10 (ix2 r (0 : Fin 1))
      = Cert.Spec.viol (Pw x1 x2 x3 x4 x5 x6 x7 x8 x9 x10) (row x0 r) := by
  unfold k0_pay15
  simp only [mulf_apply, addf_apply, subf_apply, logistic_apply, broadcast_apply]
  rw [mmGain_T_apply, shapeCast_self, broadcastTo_1b_ab_apply, col6_eq, col7_eq, g0_eq, g1_eq,
    unom0_eq x0 x1 x2 x3 x4 x5 x6 x7 x8 x9 x10 r, unom1_eq x0 x1 x2 x3 x4 x5 x6 x7 x8 x9 x10 r,
    slice2_axis1_apply 8 x0 slices_S2048x10_o0_8_S2048x1 r 0 8 rfl,
    slice2_axis1_apply 9 x0 slices_S2048x10_o0_9_S2048x1 r 0 9 rfl]
  simp only [truncf_apply, head2_eq x0 x1 x2 x3 x4 x5 x6 x7 x8 x9 x10 r]
  rfl

/-- The multiplier, from the three columns it reads. -/
theorem lam_eq (v76 v82 : FVec Ideal S2048x1 .f32) (v84 : IVec S2048x1 1)
    (h76 : v76 (ix2 r (0 : Fin 1)) = Cert.Spec.gg (row x0 r))
    (h82 : v82 (ix2 r (0 : Fin 1)) = Cert.Spec.viol (Pw x1 x2 x3 x4 x5 x6 x7 x8 x9 x10) (row x0 r))
    (h84 : v84 (ix2 r (0 : Fin 1)) = Ideal.cmp .ogt (Cert.Spec.gg (row x0 r)) (Cert.Spec.lit 0x00000000#32)) :
    k0_pay1 (F := Ideal) v76 v82 v84 (Scalar.ofBits .f32 0x00000000#32) (ix2 r (0 : Fin 1))
      = Cert.Spec.lam (Pw x1 x2 x3 x4 x5 x6 x7 x8 x9 x10) (row x0 r) := by
  unfold k0_pay1
  simp only [select_apply, divf_apply, maximumf_apply, broadcast_apply]
  rw [h76, h82, h84]
  rfl

/-- A coordinate of the projected control, from the columns it reads: `n - λ g`. -/
theorem proj_eq (j : Fin 2) (vg v76 vn v82 : FVec Ideal S2048x1 .f32) (v84 : IVec S2048x1 1)
    (hg : vg (ix2 r (0 : Fin 1)) = Cert.Spec.gvec (row x0 r) j)
    (hn : vn (ix2 r (0 : Fin 1)) = Cert.Spec.unom (Pw x1 x2 x3 x4 x5 x6 x7 x8 x9 x10) (row x0 r) j)
    (h76 : v76 (ix2 r (0 : Fin 1)) = Cert.Spec.gg (row x0 r))
    (h82 : v82 (ix2 r (0 : Fin 1)) = Cert.Spec.viol (Pw x1 x2 x3 x4 x5 x6 x7 x8 x9 x10) (row x0 r))
    (h84 : v84 (ix2 r (0 : Fin 1)) = Ideal.cmp .ogt (Cert.Spec.gg (row x0 r)) (Cert.Spec.lit 0x00000000#32)) :
    k0_pay2 (F := Ideal) vg v76 vn v82 v84 (Scalar.ofBits .f32 0x00000000#32) (ix2 r (0 : Fin 1))
      = Cert.Spec.out (Pw x1 x2 x3 x4 x5 x6 x7 x8 x9 x10) (row x0 r) j := by
  unfold k0_pay2
  simp only [subf_apply, mulf_apply]
  rw [lam_eq x0 x1 x2 x3 x4 x5 x6 x7 x8 x9 x10 r v76 v82 v84 h76 h82 h84, hg, hn]
  rfl

end Block

/-- The zero offsets of a whole-block access. -/
theorem zero_off : (![0, 0] : Fin 2 → Nat) = fun _ => 0 :=
  funext fun a => match a with | ⟨0, _⟩ => rfl | ⟨1, _⟩ => rfl

/-- Column 0 of the stored block is the second piece: the first piece covers column 1 only. -/
theorem canon_col0 (p0 p1 : Vec Ideal S2048x1 .f32) (r : Fin 2048) :
    View.canon ([⟨r0_9, p0⟩, ⟨r0_8, p1⟩] : List (View.Piece (Elt Ideal) S2048x2 .f32)) (ix2 r (0 : Fin 2)) = p1 (ix2 r (0 : Fin 1)) := by
  rw [View.canon_cons_of_not_mem]
  · have h : (ix2 r (0 : Fin 2) : S2048x2.Idx) = r0_8.emb (ix2 r (0 : Fin 1)) := by
      funext a; apply Fin.ext
      match a with
      | ⟨0, _⟩ => simp only [Rect.emb_apply, Rect.off_unit, Rect.stride_unit]; show r.val = 0 + 1 * r.val; omega
      | ⟨1, _⟩ => simp only [Rect.emb_apply, Rect.off_unit, Rect.stride_unit]; show 0 = 0 + 1 * 0; rfl
    rw [h]; exact View.canon_cons_emb r0_8 p1 [] _
  · show (ix2 r (0 : Fin 2) : S2048x2.Idx) ∉ r0_9.set
    rw [Rect.mem_set_unit]
    intro h
    have := (h (1 : Fin 2)).1
    revert this; show ¬ (1 ≤ 0); omega

/-- Column 1 of the stored block is the first piece. -/
theorem canon_col1 (p0 p1 : Vec Ideal S2048x1 .f32) (r : Fin 2048) :
    View.canon ([⟨r0_9, p0⟩, ⟨r0_8, p1⟩] : List (View.Piece (Elt Ideal) S2048x2 .f32)) (ix2 r (1 : Fin 2)) = p0 (ix2 r (0 : Fin 1)) := by
  have h : (ix2 r (1 : Fin 2) : S2048x2.Idx) = r0_9.emb (ix2 r (0 : Fin 1)) := by
    funext a; apply Fin.ext
    match a with
    | ⟨0, _⟩ => simp only [Rect.emb_apply, Rect.off_unit, Rect.stride_unit]; show r.val = 0 + 1 * r.val; omega
    | ⟨1, _⟩ => simp only [Rect.emb_apply, Rect.off_unit, Rect.stride_unit]; show 1 = 1 + 1 * 0; rfl
  rw [h]; exact View.canon_cons_emb r0_9 p0 _ _

/-- ONE BLOCK OF THE KERNEL IS THE SPECIFICATION: the stored block at row `r`, column `j`, is the projected control of
    row `r` of the observations under the weights the windows hold. Every load reads its whole window; column 0 of the
    result is the second store's payload and column 1 the first's, and the two payloads are one expression over the first
    and the second coordinate's columns. -/
theorem out_block_apply (x0 : Vec Ideal S2048x10 .f32) (x1 : Vec Ideal S128x10 .f32) (x2 : Vec Ideal S1x128 .f32)
    (x3 : Vec Ideal S32x128 .f32) (x4 : Vec Ideal S1x32 .f32) (x5 : Vec Ideal S32x128 .f32) (x6 : Vec Ideal S1x32 .f32)
    (x7 : Vec Ideal S2x32 .f32) (x8 : Vec Ideal S1x2 .f32) (x9 : Vec Ideal S1x32 .f32) (x10 : Vec Ideal S1x1 .f32)
    (r : Fin 2048) (j : Fin 2) :
    out0_11 (F := Ideal) x0 x1 x2 x3 x4 x5 x6 x7 x8 x9 x10 (ix2 r j)
      = Cert.Spec.out (Cert.Spec.paramsRows x1 x2 x3 x4 x5 x6 x7 x8 x9 x10) (fun k => x0 (ix2 r k)) j := by
  unfold out0_11
  simp only [View.ld_unit_zero (S := S2048x10) zero_off, View.ld_unit_zero (S := S128x10) zero_off,
    View.ld_unit_zero (S := S1x128) zero_off, View.ld_unit_zero (S := S32x128) zero_off,
    View.ld_unit_zero (S := S1x32) zero_off, View.ld_unit_zero (S := S2x32) zero_off,
    View.ld_unit_zero (S := S1x2) zero_off, View.ld_unit_zero (S := S1x1) zero_off]
  match j with
  | ⟨0, _⟩ =>
    refine (canon_col0 _ _ r).trans ?_
    exact proj_eq x0 x1 x2 x3 x4 x5 x6 x7 x8 x9 x10 r 0 _ _ _ _ _ (g0_eq x0 r)
      (unom0_eq x0 x1 x2 x3 x4 x5 x6 x7 x8 x9 x10 r) (gg_eq x0 r)
      (viol_eq x0 x1 x2 x3 x4 x5 x6 x7 x8 x9 x10 r) (pos_eq x0 r)
  | ⟨1, _⟩ =>
    refine (canon_col1 _ _ r).trans ?_
    exact proj_eq x0 x1 x2 x3 x4 x5 x6 x7 x8 x9 x10 r 1 _ _ _ _ _ (g1_eq x0 r)
      (unom1_eq x0 x1 x2 x3 x4 x5 x6 x7 x8 x9 x10 r) (gg_eq x0 r)
      (viol_eq x0 x1 x2 x3 x4 x5 x6 x7 x8 x9 x10 r) (pos_eq x0 r)

end Cert.KernelIdeal.KernelSpec

end
-- ==== Proof.Blocks.lean ====
/-
  From blocks to the array. The kernel runs on a grid of 256 points; point `t` reads rows `2048 t … 2048 t + 2047` of
  the observations and the ten weight arrays whole (each bias through a one-row view of its vector), and writes rows
  `2048 t … 2048 t + 2047` of the two-column result. Since the body's result at a row is the specification's `out` of
  that row, each point writes its block of the one array `G` of the arguments; the 256 blocks tile the result, so the
  result ends holding `G`.
-/
import proofs.«164526_j12807592476726_1_alg».proof.Proof.Gen.KernelIdeal.Value
import proofs.«164526_j12807592476726_1_alg».proof.Proof.KernelSpec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The windows' block indices over the grid: the observations and the result move one block of rows per point, every
    weight window stays at its one block. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-! ## What each window's block holds -/

/-- Row `r` of the observations' block at point `t` is row `2048 t + r` of the argument. -/
theorem obs_block (c : Dev nD) (t : Fin cfg0.N) (r : Fin 2048) (k : Fin 10) (b : Fin 524288) (hb : b.val = 2048 * t.val + r.val) :
    (iblk m c 0 t : Vec Ideal S2048x10 .f32) (ix2 r k)
      = (m ((c : Thread nD τ).loc main_arg0) : S524288x10.Idx → Elt Ideal .f32) (ix2 b k) := by
  unfold iblk
  rw [View.read_apply]
  show V m c main_arg0 _ = _
  rw [V_main_arg0]
  congr 1
  funext a; apply Fin.ext
  match a with
  | ⟨0, _⟩ => show win0_0.index t (0 : Fin 2) * 2048 + 1 * r.val = b.val; rw [(idx_facts t).1.1, hb]; omega
  | ⟨1, _⟩ => show win0_0.index t (1 : Fin 2) * 10 + 1 * k.val = k.val; rw [(idx_facts t).1.2]; omega

/-! A weight matrix's block is the whole matrix, at every point. -/

theorem W1_block (c : Dev nD) (t : Fin cfg0.N) :
    (iblk m c 1 t : Vec Ideal S128x10 .f32) = (m ((c : Thread nD τ).loc main_arg1) : S128x10.Idx → Elt Ideal .f32) := by
  funext y
  unfold iblk
  rw [View.read_apply]
  show V m c main_arg1 _ = _
  rw [V_main_arg1]
  congr 1
  funext a; apply Fin.ext
  match a with
  | ⟨0, _⟩ => show win0_1.index t (0 : Fin 2) * 128 + 1 * (y 0).val = (y 0).val; rw [(idx_facts t).2.1.1]; omega
  | ⟨1, _⟩ => show win0_1.index t (1 : Fin 2) * 10 + 1 * (y 1).val = (y 1).val; rw [(idx_facts t).2.1.2]; omega

theorem W21_block (c : Dev nD) (t : Fin cfg0.N) :
    (iblk m c 3 t : Vec Ideal S32x128 .f32) = (m ((c : Thread nD τ).loc main_arg3) : S32x128.Idx → Elt Ideal .f32) := by
  funext y
  unfold iblk
  rw [View.read_apply]
  show V m c main_arg3 _ = _
  rw [V_main_arg3]
  congr 1
  funext a; apply Fin.ext
  match a with
  | ⟨0, _⟩ => show win0_3.index t (0 : Fin 2) * 32 + 1 * (y 0).val = (y 0).val; rw [(idx_facts t).2.2.2.1.1]; omega
  | ⟨1, _⟩ => show win0_3.index t (1 : Fin 2) * 128 + 1 * (y 1).val = (y 1).val; rw [(idx_facts t).2.2.2.1.2]; omega

theorem W22_block (c : Dev nD) (t : Fin cfg0.N) :
    (iblk m c 5 t : Vec Ideal S32x128 .f32) = (m ((c : Thread nD τ).loc main_arg5) : S32x128.Idx → Elt Ideal .f32) := by
  funext y
  unfold iblk
  rw [View.read_apply]
  show V m c main_arg5 _ = _
  rw [V_main_arg5]
  congr 1
  funext a; apply Fin.ext
  match a with
  | ⟨0, _⟩ => show win0_5.index t (0 : Fin 2) * 32 + 1 * (y 0).val = (y 0).val; rw [(idx_facts t).2.2.2.2.2.1.1]; omega
  | ⟨1, _⟩ => show win0_5.index t (1 : Fin 2) * 128 + 1 * (y 1).val = (y 1).val; rw [(idx_facts t).2.2.2.2.2.1.2]; omega

theorem W31_block (c : Dev nD) (t : Fin cfg0.N) :
    (iblk m c 7 t : Vec Ideal S2x32 .f32) = (m ((c : Thread nD τ).loc main_arg7) : S2x32.Idx → Elt Ideal .f32) := by
  funext y
  unfold iblk
  rw [View.read_apply]
  show V m c main_arg7 _ = _
  rw [V_main_arg7]
  congr 1
  funext a; apply Fin.ext
  match a with
  | ⟨0, _⟩ => show win0_7.index t (0 : Fin 2) * 2 + 1 * (y 0).val = (y 0).val; rw [(idx_facts t).2.2.2.2.2.2.2.1.1]; omega
  | ⟨1, _⟩ => show win0_7.index t (1 : Fin 2) * 32 + 1 * (y 1).val = (y 1).val; rw [(idx_facts t).2.2.2.2.2.2.2.1.2]; omega

theorem W32_block (c : Dev nD) (t : Fin cfg0.N) :
    (iblk m c 9 t : Vec Ideal S1x32 .f32) = (m ((c : Thread nD τ).loc main_arg9) : S1x32.Idx → Elt Ideal .f32) := by
  funext y
  unfold iblk
  rw [View.read_apply]
  show V m c main_arg9 _ = _
  rw [V_main_arg9]
  congr 1
  funext a; apply Fin.ext
  match a with
  | ⟨0, _⟩ => show win0_9.index t (0 : Fin 2) * 1 + 1 * (y 0).val = (y 0).val; rw [(idx_facts t).2.2.2.2.2.2.2.2.2.1.1]; omega
  | ⟨1, _⟩ => show win0_9.index t (1 : Fin 2) * 32 + 1 * (y 1).val = (y 1).val; rw [(idx_facts t).2.2.2.2.2.2.2.2.2.1.2]; omega

/-! A bias is staged through its one-row view: entry `(0, h)` of the block is entry `h` of the vector. -/

theorem b1_block (c : Dev nD) (t : Fin cfg0.N) (h : Fin 128) :
    (iblk m c 2 t : Vec Ideal S1x128 .f32) (ix2 0 h) = (m ((c : Thread nD τ).loc main_arg2) : S128.Idx → Elt Ideal .f32) (ix1 h) := by
  have e : (V m c main_v0 : S1x128.Idx → Elt Ideal .f32)
      = shapeCast S1x128 (m ((c : Thread nD τ).loc main_arg2) : S128.Idx → Elt Ideal .f32) shapeCasts_S128_S1x128 := by
    dsimp only [Gen.V, Gen.hostOps0]; after_results; rfl
  unfold iblk
  rw [View.read_apply]
  show V m c main_v0 _ = _
  rw [e]
  refine Eq.trans (congrArg _ ?_) (shapeCast_a_1a_apply _ shapeCasts_S128_S1x128 (0 : Fin 1) h)
  funext a; apply Fin.ext
  match a with
  | ⟨0, _⟩ => show win0_2.index t (0 : Fin 2) * 1 + 1 * 0 = 0; rw [(idx_facts t).2.2.1.1]
  | ⟨1, _⟩ => show win0_2.index t (1 : Fin 2) * 128 + 1 * h.val = h.val; rw [(idx_facts t).2.2.1.2]; omega

theorem b21_block (c : Dev nD) (t : Fin cfg0.N) (h : Fin 32) :
    (iblk m c 4 t : Vec Ideal S1x32 .f32) (ix2 0 h) = (m ((c : Thread nD τ).loc main_arg4) : S32.Idx → Elt Ideal .f32) (ix1 h) := by
  have e : (V m c main_v1 : S1x32.Idx → Elt Ideal .f32)
      = shapeCast S1x32 (m ((c : Thread nD τ).loc main_arg4) : S32.Idx → Elt Ideal .f32) shapeCasts_S32_S1x32 := by
    dsimp only [Gen.V, Gen.hostOps0]; after_results; rfl
  unfold iblk
  rw [View.read_apply]
  show V m c main_v1 _ = _
  rw [e]
  refine Eq.trans (congrArg _ ?_) (shapeCast_a_1a_apply _ shapeCasts_S32_S1x32 (0 : Fin 1) h)
  funext a; apply Fin.ext
  match a with
  | ⟨0, _⟩ => show win0_4.index t (0 : Fin 2) * 1 + 1 * 0 = 0; rw [(idx_facts t).2.2.2.2.1.1]
  | ⟨1, _⟩ => show win0_4.index t (1 : Fin 2) * 32 + 1 * h.val = h.val; rw [(idx_facts t).2.2.2.2.1.2]; omega

theorem b22_block (c : Dev nD) (t : Fin cfg0.N) (h : Fin 32) :
    (iblk m c 6 t : Vec Ideal S1x32 .f32) (ix2 0 h) = (m ((c : Thread nD τ).loc main_arg6) : S32.Idx → Elt Ideal .f32) (ix1 h) := by
  have e : (V m c main_v2 : S1x32.Idx → Elt Ideal .f32)
      = shapeCast S1x32 (m ((c : Thread nD τ).loc main_arg6) : S32.Idx → Elt Ideal .f32) shapeCasts_S32_S1x32 := by
    dsimp only [Gen.V, Gen.hostOps0]; after_results; rfl
  unfold iblk
  rw [View.read_apply]
  show V m c main_v2 _ = _
  rw [e]
  refine Eq.trans (congrArg _ ?_) (shapeCast_a_1a_apply _ shapeCasts_S32_S1x32 (0 : Fin 1) h)
  funext a; apply Fin.ext
  match a with
  | ⟨0, _⟩ => show win0_6.index t (0 : Fin 2) * 1 + 1 * 0 = 0; rw [(idx_facts t).2.2.2.2.2.2.1.1]
  | ⟨1, _⟩ => show win0_6.index t (1 : Fin 2) * 32 + 1 * h.val = h.val; rw [(idx_facts t).2.2.2.2.2.2.1.2]; omega

theorem b31_block (c : Dev nD) (t : Fin cfg0.N) (h : Fin 2) :
    (iblk m c 8 t : Vec Ideal S1x2 .f32) (ix2 0 h) = (m ((c : Thread nD τ).loc main_arg8) : S2.Idx → Elt Ideal .f32) (ix1 h) := by
  have e : (V m c main_v3 : S1x2.Idx → Elt Ideal .f32)
      = shapeCast S1x2 (m ((c : Thread nD τ).loc main_arg8) : S2.Idx → Elt Ideal .f32) shapeCasts_S2_S1x2 := by
    dsimp only [Gen.V, Gen.hostOps0]; after_results; rfl
  unfold iblk
  rw [View.read_apply]
  show V m c main_v3 _ = _
  rw [e]
  refine Eq.trans (congrArg _ ?_) (shapeCast_a_1a_apply _ shapeCasts_S2_S1x2 (0 : Fin 1) h)
  funext a; apply Fin.ext
  match a with
  | ⟨0, _⟩ => show win0_8.index t (0 : Fin 2) * 1 + 1 * 0 = 0; rw [(idx_facts t).2.2.2.2.2.2.2.2.1.1]
  | ⟨1, _⟩ => show win0_8.index t (1 : Fin 2) * 2 + 1 * h.val = h.val; rw [(idx_facts t).2.2.2.2.2.2.2.2.1.2]; omega

theorem b32_block (c : Dev nD) (t : Fin cfg0.N) (h : Fin 1) :
    (iblk m c 10 t : Vec Ideal S1x1 .f32) (ix2 0 h) = (m ((c : Thread nD τ).loc main_arg10) : S1.Idx → Elt Ideal .f32) (ix1 h) := by
  have e : (V m c main_v4 : S1x1.Idx → Elt Ideal .f32)
      = shapeCast S1x1 (m ((c : Thread nD τ).loc main_arg10) : S1.Idx → Elt Ideal .f32) shapeCasts_S1_S1x1 := by
    dsimp only [Gen.V, Gen.hostOps0]; after_results; rfl
  unfold iblk
  rw [View.read_apply]
  show V m c main_v4 _ = _
  rw [e]
  refine Eq.trans (congrArg _ ?_) (shapeCast_a_1a_apply _ shapeCasts_S1_S1x1 (0 : Fin 1) h)
  funext a; apply Fin.ext
  match a with
  | ⟨0, _⟩ => show win0_10.index t (0 : Fin 2) * 1 + 1 * 0 = 0; rw [(idx_facts t).2.2.2.2.2.2.2.2.2.2.1.1]
  | ⟨1, _⟩ => show win0_10.index t (1 : Fin 2) * 1 + 1 * h.val = h.val; rw [(idx_facts t).2.2.2.2.2.2.2.2.2.2.1.2]; omega

/-- So the weights the body sees at any point are the arguments' weights. -/
theorem params_block (c : Dev nD) (t : Fin cfg0.N) :
    Cert.Spec.paramsRows (iblk m c 1 t : Vec Ideal S128x10 .f32) (iblk m c 2 t : Vec Ideal S1x128 .f32)
        (iblk m c 3 t : Vec Ideal S32x128 .f32) (iblk m c 4 t : Vec Ideal S1x32 .f32)
        (iblk m c 5 t : Vec Ideal S32x128 .f32) (iblk m c 6 t : Vec Ideal S1x32 .f32)
        (iblk m c 7 t : Vec Ideal S2x32 .f32) (iblk m c 8 t : Vec Ideal S1x2 .f32)
        (iblk m c 9 t : Vec Ideal S1x32 .f32) (iblk m c 10 t : Vec Ideal S1x1 .f32)
      = Cert.Spec.params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Cert.Spec.paramsRows Cert.Spec.params
  rw [W1_block m c t, W21_block m c t, W22_block m c t, W31_block m c t, W32_block m c t]
  congr 1
  · exact funext fun h => b1_block m c t h
  · exact funext fun h => b21_block m c t h
  · exact funext fun h => b22_block m c t h
  · exact funext fun h => b31_block m c t h
  · exact funext fun h => b32_block m c t h

/-! ## The result array -/

/-- The result as one function of the arguments: the specification's array. -/
abbrev result (c : Dev nD) : Buf (Elt Ideal) ((c : Thread nD τ).loc main_v5) :=
  Cert.Spec.G (m ((c : Thread nD τ).loc main_arg0)) (Cert.Spec.params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

/-- What point `t` writes back is block `t` of the specification's array. -/
theorem flushed_eq (c : Dev nD) (t : Fin cfg0.N) :
    (dats m 0 c).flushed 11 t = ((cfg0.win 11).blk t).view.read (Elt Ideal) (result m c) := by
  rw [Cert.KernelIdeal.Value.flushed11]
  funext j
  obtain ⟨r, q, rfl⟩ : ∃ (r : Fin 2048) (q : Fin 2), j = ix2 r q := ⟨j 0, j 1, eq_ix2 j⟩
  have hN : cfg0.N = 256 := N_0
  have ht : t.val < 256 := hN ▸ t.isLt
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r q)
    = result m c (((cfg0.win 11).blk t).view.emb (ix2 r q))
  have hemb : ((cfg0.win 11).blk t).view.emb (ix2 r q) = ix2 (⟨2048 * t.val + r.val, by omega⟩ : Fin 524288) q := by
    funext a; apply Fin.ext
    match a with
    | ⟨0, _⟩ => show win0_11.index t (0 : Fin 2) * 2048 + 1 * r.val = 2048 * t.val + r.val; rw [(idx_facts t).2.2.2.2.2.2.2.2.2.2.2.1]; omega
    | ⟨1, _⟩ => show win0_11.index t (1 : Fin 2) * 2 + 1 * q.val = q.val; rw [(idx_facts t).2.2.2.2.2.2.2.2.2.2.2.2]; omega
  rw [hemb, Cert.KernelIdeal.KernelSpec.out_block_apply, params_block m c t]
  show _ = Cert.Spec.out _ (fun k => (m ((c : Thread nD τ).loc main_arg0) : S524288x10.Idx → Elt Ideal .f32) (ix2 (⟨2048 * t.val + r.val, by omega⟩ : Fin 524288) k)) q
  congr 1
  exact funext fun k => obs_block m c t r k _ rfl

/-- Every index of the result lies in the block of the point that handles its row. -/
theorem covered (i : S524288x2.Idx) :
    ∃ t : Fin cfg0.N, (cfg0.win 11).flush t = true ∧ i ∈ ((cfg0.win 11).blk t).view.set := by
  have hN : cfg0.N = 256 := N_0
  have h0 : (i 0).val < 524288 := (i 0).isLt
  have h1 : (i 1).val < 2 := (i 1).isLt
  have hlt : (i 0).val / 2048 < cfg0.N := by omega
  have e0 := (idx_facts ⟨(i 0).val / 2048, hlt⟩).2.2.2.2.2.2.2.2.2.2.2.1
  have e1 := (idx_facts ⟨(i 0).val / 2048, hlt⟩).2.2.2.2.2.2.2.2.2.2.2.2
  refine ⟨⟨(i 0).val / 2048, hlt⟩, flush0_11 _, ?_⟩
  show i ∈ ((View.whole main_v5).slice (win0_11.rect ⟨(i 0).val / 2048, hlt⟩)).set
  rw [View.set_slice_whole, Rect.mem_set_unit]
  intro a
  match a with
  | ⟨0, _⟩ =>
    show win0_11.index ⟨(i 0).val / 2048, hlt⟩ (0 : Fin 2) * 2048 ≤ (i 0).val ∧ (i 0).val < win0_11.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_11.index ⟨(i 0).val / 2048, hlt⟩ (1 : Fin 2) * 2 ≤ (i 1).val ∧ (i 1).val < win0_11.index ⟨(i 0).val / 2048, hlt⟩ (1 : Fin 2) * 2 + 2
    rw [e1]; omega

/-- So the result array ends holding the specification's array. -/
theorem final (c : Dev nD) : (dats m 0 c).arrAt 11 cfg0.N = result m c :=
  (dats m 0 c).arrAt_eq_of_cover 11 (result m c) (fun t _ => flushed_eq m c t) covered

/-- The kernel's run, read: the result at the specification's array of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Blocks

end
-- ==== Proof.RefSpec.lean ====
/-
  The reference program computes the specification.

  Its result is followed one stage at a time at a fixed row `b` of the observations, `x = (x0 (b, k))ₖ`: each affine
  layer is a contraction against a transposed weight matrix plus a bias broadcast down the rows, so its entry `(b, j)`
  is `∑ₖ xₖ · W j k + bias j`; each `silu` and the gain's sigmoid are spelled `1 / (1 + e⁻ᶻ)` with the word of one,
  which denotes the real `1`, so they are the ideal logistic; the four observation columns are slices flattened to
  vectors; the normal `g` is two columns joined side by side; `g · g` and `g · n` are two-term sums that start from the
  zero word, which denotes `0`. The remaining constants are the very words the specification names, and stay words.
-/
import proofs.«164526_j12807592476726_1_alg».proof.Proof.Gen.ReferenceIdeal.Read
import proofs.«164526_j12807592476726_1_alg».proof.Proof.Spec
import proofs.«164526_j12807592476726_1_alg».proof.Proof.LibCoe

noncomputable section

namespace Cert.ReferenceIdeal.RefSpec

open Cert.ReferenceIdeal Cert.ReferenceIdeal.Read Idealize.ShloMosaic Idealize.ShloMosaic.ValueIdx

/-- The sigmoid as the reference spells it, negate, exponential, add one, divide one by it, is the ideal logistic:
    the word of `1.0` denotes the real one. -/
theorem logistic_expand (z : EReal) :
    Ideal.div (Ideal.ofBits .f32 0x3F800000#32) (Ideal.ofBits .f32 0x3F800000#32 + Ideal.exp (-z)) = Ideal.logistic z := by
  rw [Cert.LibCoe.ofBits_one, EReal.coe_one]; rfl

/-- `z` times that sigmoid is `silu z`. -/
theorem silu_expand (z : EReal) :
    z * Ideal.div (Ideal.ofBits .f32 0x3F800000#32) (Ideal.ofBits .f32 0x3F800000#32 + Ideal.exp (-z)) = Cert.Spec.silu z := by
  rw [logistic_expand]; rfl

section
variable (x0 : (⟨S524288x10, .f32⟩ : BufTy).Contents (Elt Ideal)) (x1 : (⟨S128x10, .f32⟩ : BufTy).Contents (Elt Ideal))
  (x2 : (⟨S128, .f32⟩ : BufTy).Contents (Elt Ideal)) (x3 : (⟨S32x128, .f32⟩ : BufTy).Contents (Elt Ideal))
  (x4 : (⟨S32, .f32⟩ : BufTy).Contents (Elt Ideal)) (x5 : (⟨S32x128, .f32⟩ : BufTy).Contents (Elt Ideal))
  (x6 : (⟨S32, .f32⟩ : BufTy).Contents (Elt Ideal)) (x7 : (⟨S2x32, .f32⟩ : BufTy).Contents (Elt Ideal))
  (x8 : (⟨S2, .f32⟩ : BufTy).Contents (Elt Ideal)) (x9 : (⟨S1x32, .f32⟩ : BufTy).Contents (Elt Ideal))
  (x10 : (⟨S1, .f32⟩ : BufTy).Contents (Elt Ideal))

/-- The first layer before its activation: row `b` of the observations against row `h` of `W₁`, plus `b₁ h`. -/
theorem pre1_eq (b : Fin 524288) (h : Fin 128) :
    val_main_v4 (F := Ideal) x0 x1 x2 (ix2 b h)
      = Cert.Spec.affine (fun k => x0 (ix2 b k)) (Cert.Spec.params x1 x2 x3 x4 x5 x6 x7 x8 x9 x10).W1 (Cert.Spec.params x1 x2 x3 x4 x5 x6 x7 x8 x9 x10).b1 h := by
  rw [val_main_v4_apply, val_main_v1_apply, val_main_v3_apply, val_main_v2_apply]
  simp only [val_main_v0_apply]
  have e1 : ∀ k : Fin 10, lidx_main_v1 (ix2 b h) k = ix2 b k := fun k => funext fun a => Fin.ext (by match a with | ⟨0, _⟩ => rfl | ⟨1, _⟩ => rfl)
  have e2 : ∀ k : Fin 10, idx_main_v0 (ridx_main_v1 (ix2 b h) k) = ix2 h k := fun k => funext fun a => Fin.ext (by match a with | ⟨0, _⟩ => rfl | ⟨1, _⟩ => rfl)
  have e3 : idx_main_v2 (idx_main_v3 (ix2 b h)) = ix1 h := funext fun a => Fin.ext (by match a with | ⟨0, _⟩ => rfl)
  simp only [e1, e2, e3]
  rfl

/-- The shared layer. -/
theorem trunk_eq (b : Fin 524288) (h : Fin 128) :
    val_main_v5 (F := Ideal) x0 x1 x2 (ix2 b h) = Cert.Spec.trunk (Cert.Spec.params x1 x2 x3 x4 x5 x6 x7 x8 x9 x10) (fun k => x0 (ix2 b k)) h := by
  rw [val_main_v5_apply, val_main_call0_v5_apply, val_main_call0_v4_apply, val_main_call0_cst_0_apply,
    val_main_call0_v3_apply, val_main_call0_v2_apply, val_main_call0_cst_apply, val_main_call0_v1_apply,
    val_main_call0_v0_apply, pre1_eq x0 x1 x2 x3 x4 x5 x6 x7 x8 x9 x10]
  exact silu_expand _

/-- The first head before its activation: the shared layer against row `p` of `W₂₁`, plus `b₂₁ p`. -/
theorem pre21_eq (b : Fin 524288) (p : Fin 32) :
    val_main_v10 (F := Ideal) x0 x1 x2 x3 x4 (ix2 b p)
      = Cert.Spec.affine (Cert.Spec.trunk (Cert.Spec.params x1 x2 x3 x4 x5 x6 x7 x8 x9 x10) (fun k => x0 (ix2 b k))) (Cert.Spec.params x1 x2 x3 x4 x5 x6 x7 x8 x9 x10).W21 (Cert.Spec.params x1 x2 x3 x4 x5 x6 x7 x8 x9 x10).b21 p := by
  rw [val_main_v10_apply, val_main_v7_apply, val_main_v9_apply, val_main_v8_apply]
  simp only [val_main_v6_apply]
  have e1 : ∀ k : Fin 128, lidx_main_v7 (ix2 b p) k = ix2 b k := fun k => funext fun a => Fin.ext (by match a with | ⟨0, _⟩ => rfl | ⟨1, _⟩ => rfl)
  have e2 : ∀ k : Fin 128, idx_main_v6 (ridx_main_v7 (ix2 b p) k) = ix2 p k := fun k => funext fun a => Fin.ext (by match a with | ⟨0, _⟩ => rfl | ⟨1, _⟩ => rfl)
  have e3 : idx_main_v8 (idx_main_v9 (ix2 b p)) = ix1 p := funext fun a => Fin.ext (by match a with | ⟨0, _⟩ => rfl)
  simp only [e1, e2, e3, trunk_eq x0 x1 x2 x3 x4 x5 x6 x7 x8 x9 x10]
  rfl

/-- The first head's hidden layer. -/
theorem head1_eq (b : Fin 524288) (p : Fin 32) :
    val_main_v11 (F := Ideal) x0 x1 x2 x3 x4 (ix2 b p) = Cert.Spec.head1 (Cert.Spec.params x1 x2 x3 x4 x5 x6 x7 x8 x9 x10) (fun k => x0 (ix2 b k)) p := by
  rw [val_main_v11_apply, val_main_call1_v5_apply, val_main_call1_v4_apply, val_main_call1_cst_0_apply,
    val_main_call1_v3_apply, val_main_call1_v2_apply, val_main_call1_cst_apply, val_main_call1_v1_apply,
    val_main_call1_v0_apply, pre21_eq x0 x1 x2 x3 x4 x5 x6 x7 x8 x9 x10]
  exact silu_expand _

/-- The second head before its activation. -/
theorem pre22_eq (b : Fin 524288) (p : Fin 32) :
    val_main_v16 (F := Ideal) x0 x1 x2 x5 x6 (ix2 b p)
      = Cert.Spec.affine (Cert.Spec.trunk (Cert.Spec.params x1 x2 x3 x4 x5 x6 x7 x8 x9 x10) (fun k => x0 (ix2 b k))) (Cert.Spec.params x1 x2 x3 x4 x5 x6 x7 x8 x9 x10).W22 (Cert.Spec.params x1 x2 x3 x4 x5 x6 x7 x8 x9 x10).b22 p := by
  rw [val_main_v16_apply, val_main_v13_apply, val_main_v15_apply, val_main_v14_apply]
  simp only [val_main_v12_apply]
  have e1 : ∀ k : Fin 128, lidx_main_v13 (ix2 b p) k = ix2 b k := fun k => funext fun a => Fin.ext (by match a with | ⟨0, _⟩ => rfl | ⟨1, _⟩ => rfl)
  have e2 : ∀ k : Fin 128, idx_main_v12 (ridx_main_v13 (ix2 b p) k) = ix2 p k := fun k => funext fun a => Fin.ext (by match a with | ⟨0, _⟩ => rfl | ⟨1, _⟩ => rfl)
  have e3 : idx_main_v14 (idx_main_v15 (ix2 b p)) = ix1 p := funext fun a => Fin.ext (by match a with | ⟨0, _⟩ => rfl)
  simp only [e1, e2, e3, trunk_eq x0 x1 x2 x3 x4 x5 x6 x7 x8 x9 x10]
  rfl

/-- The second head's hidden layer. -/
theorem head2_eq (b : Fin 524288) (p : Fin 32) :
    val_main_v17 (F := Ideal) x0 x1 x2 x5 x6 (ix2 b p) = Cert.Spec.head2 (Cert.Spec.params x1 x2 x3 x4 x5 x6 x7 x8 x9 x10) (fun k => x0 (ix2 b k)) p := by
  rw [val_main_v17_apply, val_main_call2_v5_apply, val_main_call2_v4_apply, val_main_call2_cst_0_apply,
    val_main_call2_v3_apply, val_main_call2_v2_apply, val_main_call2_cst_apply, val_main_call2_v1_apply,
    val_main_call2_v0_apply, pre22_eq x0 x1 x2 x3 x4 x5 x6 x7 x8 x9 x10]
  exact silu_expand _

/-- The nominal control. -/
theorem unom_eq (b : Fin 524288) (j : Fin 2) :
    val_main_v22 (F := Ideal) x0 x1 x2 x3 x4 x7 x8 (ix2 b j) = Cert.Spec.unom (Cert.Spec.params x1 x2 x3 x4 x5 x6 x7 x8 x9 x10) (fun k => x0 (ix2 b k)) j := by
  rw [val_main_v22_apply, val_main_v19_apply, val_main_v21_apply, val_main_v20_apply]
  simp only [val_main_v18_apply]
  have e1 : ∀ k : Fin 32, lidx_main_v19 (ix2 b j) k = ix2 b k := fun k => funext fun a => Fin.ext (by match a with | ⟨0, _⟩ => rfl | ⟨1, _⟩ => rfl)
  have e2 : ∀ k : Fin 32, idx_main_v18 (ridx_main_v19 (ix2 b j) k) = ix2 j k := fun k => funext fun a => Fin.ext (by match a with | ⟨0, _⟩ => rfl | ⟨1, _⟩ => rfl)
  have e3 : idx_main_v20 (idx_main_v21 (ix2 b j)) = ix1 j := funext fun a => Fin.ext (by match a with | ⟨0, _⟩ => rfl)
  simp only [e1, e2, e3, head1_eq x0 x1 x2 x3 x4 x5 x6 x7 x8 x9 x10]
  rfl

/-- The gain's pre-activation: the second head against the one row of `W₃₂`, plus `b₃₂`. -/
theorem pre32_eq (b : Fin 524288) :
    val_main_v27 (F := Ideal) x0 x1 x2 x5 x6 x9 x10 (ix2 b (0 : Fin 1))
      = Cert.Spec.affine (Cert.Spec.head2 (Cert.Spec.params x1 x2 x3 x4 x5 x6 x7 x8 x9 x10) (fun k => x0 (ix2 b k))) (Cert.Spec.params x1 x2 x3 x4 x5 x6 x7 x8 x9 x10).W32 (Cert.Spec.params x1 x2 x3 x4 x5 x6 x7 x8 x9 x10).b32 0 := by
  rw [val_main_v27_apply, val_main_v24_apply, val_main_v26_apply, val_main_v25_apply]
  simp only [val_main_v23_apply]
  have e1 : ∀ k : Fin 32, lidx_main_v24 (ix2 b (0 : Fin 1)) k = ix2 b k := fun k => funext fun a => Fin.ext (by match a with | ⟨0, _⟩ => rfl | ⟨1, _⟩ => rfl)
  have e2 : ∀ k : Fin 32, idx_main_v23 (ridx_main_v24 (ix2 b (0 : Fin 1)) k) = ix2 (0 : Fin 1) k := fun k => funext fun a => Fin.ext (by match a with | ⟨0, _⟩ => rfl | ⟨1, _⟩ => rfl)
  have e3 : idx_main_v25 (idx_main_v26 (ix2 b (0 : Fin 1))) = ix1 (0 : Fin 1) := funext fun a => Fin.ext (by match a with | ⟨0, _⟩ => rfl)
  simp only [e1, e2, e3, head2_eq x0 x1 x2 x3 x4 x5 x6 x7 x8 x9 x10]
  rfl

/-- The gain `α`: four times the sigmoid of that, the column flattened to a vector first. -/
theorem alpha_eq (b : Fin 524288) :
    val_main_v36 (F := Ideal) x0 x1 x2 x5 x6 x9 x10 (ix1 b) = Cert.Spec.alpha (Cert.Spec.params x1 x2 x3 x4 x5 x6 x7 x8 x9 x10) (fun k => x0 (ix2 b k)) := by
  rw [val_main_v36_apply, val_main_v35_apply, val_main_cst_1_apply, val_main_v34_apply, val_main_v33_apply,
    val_main_cst_0_apply, val_main_v32_apply, val_main_v31_apply, val_main_cst_apply, val_main_v30_apply,
    val_main_v29_apply, val_main_v28_apply]
  have e : idx_main_v28 (ix1 b) = ix2 b (0 : Fin 1) :=
    funext fun a => Fin.ext (by match a with | ⟨0, _⟩ => exact Nat.div_one _ | ⟨1, _⟩ => rfl)
  rw [e, pre32_eq x0 x1 x2 x3 x4 x5 x6 x7 x8 x9 x10]
  exact congrArg (Ideal.ofBits .f32 0x40800000#32 * ·) (logistic_expand _)

/-- Column 6 of the observations, sliced out and flattened. -/
theorem col6_eq (b : Fin 524288) : val_main_v38 (F := Ideal) x0 (ix1 b) = x0 (ix2 b 6) := by
  rw [val_main_v38_apply, val_main_v37_apply]
  exact congrArg x0 (funext fun a => Fin.ext (by match a with | ⟨0, _⟩ => exact Nat.div_one _ | ⟨1, _⟩ => rfl))

/-- Column 7. -/
theorem col7_eq (b : Fin 524288) : val_main_v40 (F := Ideal) x0 (ix1 b) = x0 (ix2 b 7) := by
  rw [val_main_v40_apply, val_main_v39_apply]
  exact congrArg x0 (funext fun a => Fin.ext (by match a with | ⟨0, _⟩ => exact Nat.div_one _ | ⟨1, _⟩ => rfl))

/-- Column 8. -/
theorem col8_eq (b : Fin 524288) : val_main_v42 (F := Ideal) x0 (ix1 b) = x0 (ix2 b 8) := by
  rw [val_main_v42_apply, val_main_v41_apply]
  exact congrArg x0 (funext fun a => Fin.ext (by match a with | ⟨0, _⟩ => exact Nat.div_one _ | ⟨1, _⟩ => rfl))

/-- Column 9. -/
theorem col9_eq (b : Fin 524288) : val_main_v44 (F := Ideal) x0 (ix1 b) = x0 (ix2 b 9) := by
  rw [val_main_v44_apply, val_main_v43_apply]
  exact congrArg x0 (funext fun a => Fin.ext (by match a with | ⟨0, _⟩ => exact Nat.div_one _ | ⟨1, _⟩ => rfl))

/-- The normal's first entry: the joined array's column 0 is the first piece, `-2 x₆` as a column. -/
theorem gvec0_eq (b : Fin 524288) :
    val_main_v61 (F := Ideal) x0 (ix2 b (0 : Fin 2)) = Cert.Spec.gvec (fun k => x0 (ix2 b k)) 0 := by
  have hc : val_main_v61 (F := Ideal) x0 (ix2 b (0 : Fin 2)) = val_main_v59 (F := Ideal) x0 (ix2 b (0 : Fin 1)) := by
    unfold val_main_v61
    exact concatenate_pair_apply_left (t := S524288x2) (s₁ := S524288x1) (s₂ := S524288x1) 1 _ _ _ (ix2 b (0 : Fin 2)) rfl (ix2 b (0 : Fin 1))
      (fun a => match a with | ⟨0, _⟩ => rfl | ⟨1, _⟩ => rfl)
  have e : idx_main_v59 (ix2 b (0 : Fin 1)) = ix1 b := funext fun a => Fin.ext (by match a with | ⟨0, _⟩ => rfl)
  rw [hc, val_main_v59_apply, e, val_main_v56_apply, val_main_v55_apply, val_main_cst_4_apply, col6_eq]
  rfl

/-- The normal's second entry: column 1 falls in the second piece, `-2 x₇` as a column, at its column 0. -/
theorem gvec1_eq (b : Fin 524288) :
    val_main_v61 (F := Ideal) x0 (ix2 b (1 : Fin 2)) = Cert.Spec.gvec (fun k => x0 (ix2 b k)) 1 := by
  have hc : val_main_v61 (F := Ideal) x0 (ix2 b (1 : Fin 2)) = val_main_v60 (F := Ideal) x0 (ix2 b (0 : Fin 1)) := by
    unfold val_main_v61
    exact concatenate_pair_apply_right (t := S524288x2) (s₁ := S524288x1) (s₂ := S524288x1) 1 _ _ _ (ix2 b (1 : Fin 2)) rfl rfl (ix2 b (0 : Fin 1))
      (fun a => match a with | ⟨0, _⟩ => fun _ => rfl | ⟨1, _⟩ => fun h => absurd rfl h) rfl
  have e : idx_main_v60 (ix2 b (0 : Fin 1)) = ix1 b := funext fun a => Fin.ext (by match a with | ⟨0, _⟩ => rfl)
  rw [hc, val_main_v60_apply, e, val_main_v58_apply, val_main_v57_apply, val_main_cst_5_apply, col7_eq]
  rfl

/-- Both entries of the normal. -/
theorem gvec_eq (b : Fin 524288) (j : Fin 2) :
    val_main_v61 (F := Ideal) x0 (ix2 b j) = Cert.Spec.gvec (fun k => x0 (ix2 b k)) j :=
  match j with
  | ⟨0, _⟩ => gvec0_eq x0 b
  | ⟨1, _⟩ => gvec1_eq x0 b

/-- `g · g`: the float sum starts from the zero word, which denotes `0`, and runs over the two columns. -/
theorem gg_eq (b : Fin 524288) : val_main_v65 (F := Ideal) x0 (ix1 b) = Cert.Spec.gg (fun k => x0 (ix2 b k)) := by
  rw [val_main_v65_apply, val_main_cst_6_apply, Ideal.ofBits_def, Ideal.ofBits_zero_f32, zero_add, Fin.sum_univ_two,
    val_main_v64_apply, val_main_v64_apply]
  have e0 : idx_main_v65 (ix1 b) 0 = ix2 b (0 : Fin 2) := funext fun a => Fin.ext (by match a with | ⟨0, _⟩ => rfl | ⟨1, _⟩ => rfl)
  have e1 : idx_main_v65 (ix1 b) 1 = ix2 b (1 : Fin 2) := funext fun a => Fin.ext (by match a with | ⟨0, _⟩ => rfl | ⟨1, _⟩ => rfl)
  rw [e0, e1, gvec0_eq, gvec1_eq]
  rfl

/-- The half-space's bound `h`. -/
theorem bound_eq (b : Fin 524288) :
    val_main_v63 (F := Ideal) x0 x1 x2 x5 x6 x9 x10 (ix1 b) = Cert.Spec.bound (Cert.Spec.params x1 x2 x3 x4 x5 x6 x7 x8 x9 x10) (fun k => x0 (ix2 b k)) := by
  rw [val_main_v63_apply, val_main_v54_apply, val_main_v53_apply, val_main_cst_3_apply, val_main_v52_apply,
    val_main_v50_apply, val_main_v51_apply, val_main_v62_apply, val_main_v49_apply, val_main_v47_apply,
    val_main_v45_apply, val_main_v46_apply, val_main_v48_apply, val_main_cst_2_apply,
    alpha_eq x0 x1 x2 x3 x4 x5 x6 x7 x8 x9 x10, col6_eq, col7_eq, col8_eq, col9_eq]
  rfl

/-- The violation `g · n - h`. -/
theorem viol_eq (b : Fin 524288) :
    val_main_v68 (F := Ideal) x0 x1 x2 x3 x4 x5 x6 x7 x8 x9 x10 (ix1 b) = Cert.Spec.viol (Cert.Spec.params x1 x2 x3 x4 x5 x6 x7 x8 x9 x10) (fun k => x0 (ix2 b k)) := by
  rw [val_main_v68_apply, val_main_v67_apply, val_main_cst_7_apply, Ideal.ofBits_def, Ideal.ofBits_zero_f32, zero_add,
    Fin.sum_univ_two, val_main_v66_apply, val_main_v66_apply, bound_eq x0 x1 x2 x3 x4 x5 x6 x7 x8 x9 x10]
  have e0 : idx_main_v67 (ix1 b) 0 = ix2 b (0 : Fin 2) := funext fun a => Fin.ext (by match a with | ⟨0, _⟩ => rfl | ⟨1, _⟩ => rfl)
  have e1 : idx_main_v67 (ix1 b) 1 = ix2 b (1 : Fin 2) := funext fun a => Fin.ext (by match a with | ⟨0, _⟩ => rfl | ⟨1, _⟩ => rfl)
  rw [e0, e1, gvec0_eq, gvec1_eq, unom_eq x0 x1 x2 x3 x4 x5 x6 x7 x8 x9 x10, unom_eq x0 x1 x2 x3 x4 x5 x6 x7 x8 x9 x10]
  rfl

/-- The multiplier `λ`. -/
theorem lam_eq (b : Fin 524288) :
    val_main_v75 (F := Ideal) x0 x1 x2 x3 x4 x5 x6 x7 x8 x9 x10 (ix1 b) = Cert.Spec.lam (Cert.Spec.params x1 x2 x3 x4 x5 x6 x7 x8 x9 x10) (fun k => x0 (ix2 b k)) := by
  rw [val_main_v75_apply, val_main_v70_apply, val_main_v69_apply, val_main_cst_8_apply, val_main_v74_apply,
    val_main_v71_apply, val_main_call3_v0_apply, val_main_call3_cst_apply, val_main_v73_apply, val_main_v72_apply,
    val_main_cst_9_apply, val_main_call4_v1_apply, val_main_call4_v0_apply, val_main_cst_10_apply,
    gg_eq, viol_eq x0 x1 x2 x3 x4 x5 x6 x7 x8 x9 x10]
  rfl

/-- The projected control `n - λ g`. -/
theorem out_eq (b : Fin 524288) (j : Fin 2) :
    val_main_v79 (F := Ideal) x0 x1 x2 x3 x4 x5 x6 x7 x8 x9 x10 (ix2 b j) = Cert.Spec.out (Cert.Spec.params x1 x2 x3 x4 x5 x6 x7 x8 x9 x10) (fun k => x0 (ix2 b k)) j := by
  rw [val_main_v79_apply, val_main_v78_apply, val_main_v77_apply, val_main_v76_apply]
  have e : idx_main_v76 (idx_main_v77 (ix2 b j)) = ix1 b := funext fun a => Fin.ext (by match a with | ⟨0, _⟩ => rfl)
  rw [e, lam_eq x0 x1 x2 x3 x4 x5 x6 x7 x8 x9 x10, gvec_eq, unom_eq x0 x1 x2 x3 x4 x5 x6 x7 x8 x9 x10]
  rfl

end

/-- The reference's result array is the specification's array `G` of its arguments: index by index, `out` of the row. -/
theorem result_eq (x0 : (⟨S524288x10, .f32⟩ : BufTy).Contents (Elt Ideal)) (x1 : (⟨S128x10, .f32⟩ : BufTy).Contents (Elt Ideal))
    (x2 : (⟨S128, .f32⟩ : BufTy).Contents (Elt Ideal)) (x3 : (⟨S32x128, .f32⟩ : BufTy).Contents (Elt Ideal))
    (x4 : (⟨S32, .f32⟩ : BufTy).Contents (Elt Ideal)) (x5 : (⟨S32x128, .f32⟩ : BufTy).Contents (Elt Ideal))
    (x6 : (⟨S32, .f32⟩ : BufTy).Contents (Elt Ideal)) (x7 : (⟨S2x32, .f32⟩ : BufTy).Contents (Elt Ideal))
    (x8 : (⟨S2, .f32⟩ : BufTy).Contents (Elt Ideal)) (x9 : (⟨S1x32, .f32⟩ : BufTy).Contents (Elt Ideal))
    (x10 : (⟨S1, .f32⟩ : BufTy).Contents (Elt Ideal)) :
    val_main_v79 (F := Ideal) x0 x1 x2 x3 x4 x5 x6 x7 x8 x9 x10
      = Cert.Spec.G x0 (Cert.Spec.params x1 x2 x3 x4 x5 x6 x7 x8 x9 x10) := by
  funext i
  obtain ⟨b, j, rfl⟩ : ∃ (b : Fin 524288) (j : Fin 2), i = ix2 b j := ⟨i 0, i 1, eq_ix2 i⟩
  exact out_eq x0 x1 x2 x3 x4 x5 x6 x7 x8 x9 x10 b j

end Cert.ReferenceIdeal.RefSpec

end
-- ==== Proof.lean ====
/-
  The certificate of the half-space-projection network kernel against its plain reference.

  Both programs compute, for every row `x` of the observation matrix, a small network (a shared layer and two heads,
  each `silu` of an affine map; a nominal control `n` and a gain `α`) followed by the closed-form projection of `n`
  onto one half-space built from `x` and `α` (Proof/Spec.lean: the function `out`, and the array `G` of it over the
  rows). The kernel does it 2048 rows at a time over a grid of 256 points, with the matrix products on the matrix
  unit into a zero accumulator, in a narrower format, and with the logistic function as one operation; the reference
  does it on whole arrays, with `dot_general`, two two-term sums and the logistic function spelt `1 / (1 + e⁻ᶻ)`.
  On the extended reals a change of format is the identity, a product into a zero accumulator is the contraction's
  sum, and the one operation is by definition that quotient; every other operation and every constant is the same
  on both sides, in the same order. So:
  * the reference's result is `G` of its arguments (Proof/RefSpec.lean, over the reference's run read one operation
    at a time);
  * each grid point of the kernel writes its block of `G` (Proof/KernelSpec.lean: the body's stored values at a row
    are `out` of that row), and the blocks tile the result (Proof/Blocks.lean);
  * the two runs therefore end with one array. No law used needs the inputs finite, so the precondition is not opened.
  The three frames are the generated ones (the reference's is its run with the result dropped); the idealization
  rewrote nothing, so its claim is trivial.
-/
import proofs.«164526_j12807592476726_1_alg».proof.Defs
import proofs.«164526_j12807592476726_1_alg».proof.Proof.Gen.Kernel
import proofs.«164526_j12807592476726_1_alg».proof.Proof.Gen.Kernel.Skeleton
import proofs.«164526_j12807592476726_1_alg».proof.Proof.Gen.Kernel.Launch
import proofs.«164526_j12807592476726_1_alg».proof.Proof.Gen.Kernel.Points
import proofs.«164526_j12807592476726_1_alg».proof.Proof.Gen.Kernel.Frame
import proofs.«164526_j12807592476726_1_alg».proof.Proof.Gen.KernelIdeal
import proofs.«164526_j12807592476726_1_alg».proof.Proof.Gen.KernelIdeal.Skeleton
import proofs.«164526_j12807592476726_1_alg».proof.Proof.Gen.KernelIdeal.Launch
import proofs.«164526_j12807592476726_1_alg».proof.Proof.Gen.KernelIdeal.Points
import proofs.«164526_j12807592476726_1_alg».proof.Proof.Gen.KernelIdeal.Frame
import proofs.«164526_j12807592476726_1_alg».proof.Proof.Gen.ReferenceIdeal
import proofs.«164526_j12807592476726_1_alg».proof.Proof.Gen.Pre_finite_inputs
import proofs.«164526_j12807592476726_1_alg».proof.Proof.Gen.KernelIdeal.Value
import proofs.«164526_j12807592476726_1_alg».proof.Proof.Gen.ReferenceIdeal.Run
import proofs.«164526_j12807592476726_1_alg».proof.Proof.Gen.ReferenceIdeal.Read
import proofs.«164526_j12807592476726_1_alg».proof.Proof.Blocks
import proofs.«164526_j12807592476726_1_alg».proof.Proof.RefSpec
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's are both the
    specification's array `G` of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v79_eq, Cert.ReferenceIdeal.RefSpec.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
